-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S8x1 : Shape := ⟨2, ![8, 1]⟩
abbrev S64x64 : Shape := ⟨2, ![64, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x1 : S_.BroadcastsInDim S8x1 (![] : Fin 0 → Fin S8x1.rank)
  reducesTo_S8x1_S_d0_1 : S8x1.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S100000x64 .f32) (main_arg1 : FVec F S8x1 .f32) (main_arg2 : FVec F S64x64 .f32) (main_arg3 : FVec F S64x64 .f32) (main_arg4 : FVec F S64x64 .f32) (main_arg5 : IVec S1000000 32) (main_arg6 : IVec S1000000 32) (main_arg7 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x1 .f32 := Host.absf main_arg1
  let main_cst_0 : FVec F S_ .f32 := constant S_ .f32 0x7F800000#32
  let main_v5 : FVec F S8x1 .f32 := broadcastInDim S8x1 ![] bcast_S_S8x1 main_cst_0
  let main_v6 : IVec S8x1 1 := cmpf .olt main_v4 main_v5
  let main_c_1 : IVec S_ 1 := constantI S_ 1 1#1
  let main_v7 : IVec S_ 1 := (fun x v => Host.reduce IntOp.andi x v reducesTo_S8x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S8x1 : Shape := ⟨2, ![8, 1]⟩
abbrev S64x64 : Shape := ⟨2, ![64, 64]⟩
abbrev S1000000 : Shape := ⟨1, ![1000000]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S10000x64 : Shape := ⟨2, ![10000, 64]⟩
abbrev S1000000x64 : Shape := ⟨2, ![1000000, 64]⟩
abbrev S100000x192 : Shape := ⟨2, ![100000, 192]⟩

abbrev nBuf : Space → Nat
  | .hbm => 81
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S8x1, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .i1⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1000000, .i32⟩
  | .hbm, ⟨66, _⟩ => ⟨S1000000, .i1⟩
  | .hbm, ⟨67, _⟩ => ⟨S_, .i32⟩
  | .hbm, ⟨68, _⟩ => ⟨S1000000, .i32⟩
  | .hbm, ⟨69, _⟩ => ⟨S1000000, .i32⟩
  | .hbm, ⟨70, _⟩ => ⟨S1000000, .i32⟩
  | .hbm, ⟨71, _⟩ => ⟨S1000000x1, .i32⟩
  | .hbm, ⟨72, _⟩ => ⟨S1000000x64, .f32⟩
  | .hbm, ⟨73, _⟩ => ⟨S_, .f32⟩
  | .hbm, ⟨74, _⟩ => ⟨S100000x64, .f32⟩
  | .hbm, ⟨75, _⟩ => ⟨S1000000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x192, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S8x1 : S_.BroadcastsInDim S8x1 (![] : Fin 0 → Fin S8x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x1_S1000000 : S1000000x1.ShapeCasts S1000000
  bcast_S_S100000 : S_.BroadcastsInDim S100000 (![] : Fin 0 → Fin S100000.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S10000x64_S10000x64 : S10000x64.ShapeCasts S10000x64
  concatenates_S100000x64_S100000x64_S100000x64_S100000x192_d1 : Shape.Concatenates [S100000x64, S100000x64, S100000x64] S100000x192 1
  gather_S8x1_S1000000x1_S1000000x1_1_0_n_n_0_1_11_wf : GatherDims.WF S8x1 S1000000x1 S1000000x1 [1] [0] [] [0] [] 1 ![1, 1]
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def gather_S8x1_S1000000x1_S1000000x1_1_0_n_n_0_1_11 : GatherDims S8x1 S1000000x1 S1000000x1 where
  offsetDims := [1]
  collapsedSliceDims := [0]
  operandBatchingDims := []
  startIndicesBatchingDims := []
  startIndexMap := [0]
  indexVectorDim := 1
  sliceSizes := ![1, 1]
  wf := gather_S8x1_S1000000x1_S1000000x1_1_0_n_n_0_1_11_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S8x1 : Shape := ⟨2, ![8, 1]⟩
abbrev S64x64 : Shape := ⟨2, ![64, 64]⟩
abbrev S1000000 : Shape := ⟨1, ![1000000]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩
abbrev S1000000x64 : Shape := ⟨2, ![1000000, 64]⟩
abbrev S100000x192 : Shape := ⟨2, ![100000, 192]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S8x1, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .i1⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x1, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1000000, .i32⟩
  | .hbm, ⟨66, _⟩ => ⟨S1000000, .i1⟩
  | .hbm, ⟨67, _⟩ => ⟨S_, .i32⟩
  | .hbm, ⟨68, _⟩ => ⟨S1000000, .i32⟩
  | .hbm, ⟨69, _⟩ => ⟨S1000000, .i32⟩
  | .hbm, ⟨70, _⟩ => ⟨S1000000, .i32⟩
  | .hbm, ⟨71, _⟩ => ⟨S1000000x1, .i32⟩
  | .hbm, ⟨72, _⟩ => ⟨S1000000x64, .f32⟩
  | .hbm, ⟨73, _⟩ => ⟨S_, .f32⟩
  | .hbm, ⟨74, _⟩ => ⟨S100000x64, .f32⟩
  | .hbm, ⟨75, _⟩ => ⟨S1000000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x192, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]

class Facts₀ : Prop where
  bcast_S_S8x1 : S_.BroadcastsInDim S8x1 (![] : Fin 0 → Fin S8x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x1_S1000000 : S1000000x1.ShapeCasts S1000000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  gather_S8x1_S1000000x1_S1000000x1_1_0_n_n_0_1_11_wf : GatherDims.WF S8x1 S1000000x1 S1000000x1 [1] [0] [] [0] [] 1 ![1, 1]
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S8x1_S1000000x1_S1000000x1_1_0_n_n_0_1_11 : GatherDims S8x1 S1000000x1 S1000000x1 where
  offsetDims := [1]
  collapsedSliceDims := [0]
  operandBatchingDims := []
  startIndicesBatchingDims := []
  startIndexMap := [0]
  indexVectorDim := 1
  sliceSizes := ![1, 1]
  wf := gather_S8x1_S1000000x1_S1000000x1_1_0_n_n_0_1_11_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.K.Region0.lean ====
/-
  Region 0 of the program: one linear transform, rows of node features times a 64 x 64 matrix, run block by block.
  The grid has ten points; point t reads rows 10000 t … 10000 t + 9999 of the features (window 0) and the whole
  matrix (window 1, fetched once) and writes the same rows of the product (window 2). The body loads both blocks,
  rounds them to the narrower float format, multiplies them into a zero accumulator and stores the whole product
  block. Stated for any contents `V` of the device's buffers at the region's entry and for any float instance:
  what each window's staging buffer holds before and after the body at a point, the body's triple, the pipeline's
  proof data over it, and the body obligation at every point.
-/
import proofs.«150190_j41601053229994_1_alg».proof.Proof.Gen.Kernel.Launch
import proofs.«150190_j41601053229994_1_alg».proof.Proof.Gen.Kernel.Skeleton
import proofs.«150190_j41601053229994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds their block at every point, for any proof data over `V`'s arrays whose
    body leaves that block in place. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the matrix at every point: it is fetched at the first point and its block never
    moves. -/
theorem before_mat_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- the whole block of 10000 rows -/
abbrev rRows : Rect S10000x64 := Rect.unit (s := S10000x64) ![0, 0] S10000x64.size inb_S10000x64_S10000x64_0_0
/-- the whole matrix -/
abbrev rMat : Rect S64x64 := Rect.unit (s := S64x64) ![0, 0] S64x64.size inb_S64x64_S64x64_0_0

/-- What the body leaves in the product's staging buffer, from the two input blocks: its one store, of the whole block. -/
def prodBlock (x0 : Vec F S10000x64 .f32) (x1 : Vec F S64x64 .f32) : Vec F S10000x64 .f32 :=
  View.canon [⟨rRows, k0_pay1 (View.ld x0 rRows) (View.ld x1 rMat)⟩]

/-- That store covers the buffer. -/
theorem cover_prod (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 1000000 in
/-- The body on whole staging buffers, the inputs' at contents `x0`, `x1` and the product's at anything, runs to the
    continuation with the inputs' as they were and the product's at `prodBlock x0 x1`. -/
theorem sound_kernel (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The pipeline's proof data on core `c`: the arrays as the region finds them; after the body at point `t` each input's
    buffer at its block and the product's at `prodBlock` of the two; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => prodBlock (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = iblk V c 0 t := by dsimp only [dat]
theorem after_mat (c : Dev nD) (t : Fin cfg0.N) : (dat V c).after 1 t = iblk V c 1 t := by dsimp only [dat]
theorem after_prod (c : Dev nD) (t : Fin cfg0.N) : (dat V c).after 2 t = prodBlock (iblk V c 0 t) (iblk V c 1 t) := by dsimp only [dat]

theorem before_rows (c : Dev nD) (t : Fin cfg0.N) (d) : (dat V c).before 0 t d = iblk V c 0 t :=
  before_rows_of V (dat V c) (A_eq V c 0) (after_rows V c) t d
theorem before_mat (c : Dev nD) (t : Fin cfg0.N) (d) : (dat V c).before 1 t d = iblk V c 1 t :=
  before_mat_of V (dat V c) (A_eq V c 1) (after_mat V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_mat]
  rw [show (dat V c).Φ t.succ = (dat V c).Φ t.castSucc from rfl,
    show (dat V c).owesAt () t.succ = (dat V c).owesAt () t.castSucc from rfl,
    after_rows, after_mat, after_prod]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.K.Region1.lean ====
/-
  Region 1 of the program: one linear transform, rows of node features times a 64 x 64 matrix, run block by block.
  The grid has ten points; point t reads rows 10000 t … 10000 t + 9999 of the features (window 0) and the whole
  matrix (window 1, fetched once) and writes the same rows of the product (window 2). The body loads both blocks,
  rounds them to the narrower float format, multiplies them into a zero accumulator and stores the whole product
  block. Stated for any contents `V` of the device's buffers at the region's entry and for any float instance:
  what each window's staging buffer holds before and after the body at a point, the body's triple, the pipeline's
  proof data over it, and the body obligation at every point.
-/
import proofs.«150190_j41601053229994_1_alg».proof.Proof.Gen.Kernel.Launch
import proofs.«150190_j41601053229994_1_alg».proof.Proof.Gen.Kernel.Skeleton
import proofs.«150190_j41601053229994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature rows' staging buffer holds their block at every point, for any proof data over `V`'s arrays whose
    body leaves that block in place. -/
theorem before_rows_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the matrix at every point: it is fetched at the first point and its block never
    moves. -/
theorem before_mat_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- the whole block of 10000 rows -/
abbrev rRows : Rect S10000x64 := Rect.unit (s := S10000x64) ![0, 0] S10000x64.size inb_S10000x64_S10000x64_0_0
/-- the whole matrix -/
abbrev rMat : Rect S64x64 := Rect.unit (s := S64x64) ![0, 0] S64x64.size inb_S64x64_S64x64_0_0

/-- What the body leaves in the product's staging buffer, from the two input blocks: its one store, of the whole block. -/
def prodBlock (x0 : Vec F S10000x64 .f32) (x1 : Vec F S64x64 .f32) : Vec F S10000x64 .f32 :=
  View.canon [⟨rRows, k1_pay1 (View.ld x0 rRows) (View.ld x1 rMat)⟩]

/-- That store covers the buffer. -/
theorem cover_prod (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 1000000 in
/-- The body on whole staging buffers, the inputs' at contents `x0`, `x1` and the product's at anything, runs to the
    continuation with the inputs' as they were and the product's at `prodBlock x0 x1`. -/
theorem sound_kernel (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The pipeline's proof data on core `c`: the arrays as the region finds them; after the body at point `t` each input's
    buffer at its block and the product's at `prodBlock` of the two; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => prodBlock (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_rows (c : Dev nD) (t : Fin cfg1.N) : (dat V c).after 0 t = iblk V c 0 t := by dsimp only [dat]
theorem after_mat (c : Dev nD) (t : Fin cfg1.N) : (dat V c).after 1 t = iblk V c 1 t := by dsimp only [dat]
theorem after_prod (c : Dev nD) (t : Fin cfg1.N) : (dat V c).after 2 t = prodBlock (iblk V c 0 t) (iblk V c 1 t) := by dsimp only [dat]

theorem before_rows (c : Dev nD) (t : Fin cfg1.N) (d) : (dat V c).before 0 t d = iblk V c 0 t :=
  before_rows_of V (dat V c) (A_eq V c 0) (after_rows V c) t d
theorem before_mat (c : Dev nD) (t : Fin cfg1.N) (d) : (dat V c).before 1 t d = iblk V c 1 t :=
  before_mat_of V (dat V c) (A_eq V c 1) (after_mat V c) t d

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_mat]
  rw [show (dat V c).Φ t.succ = (dat V c).Φ t.castSucc from rfl,
    show (dat V c).owesAt () t.succ = (dat V c).owesAt () t.castSucc from rfl,
    after_rows, after_mat, after_prod]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K.Region2.lean ====
/-
  Region 2 of the program: one linear transform, rows of node features times a 64 x 64 matrix, run block by block.
  The grid has ten points; point t reads rows 10000 t … 10000 t + 9999 of the features (window 0) and the whole
  matrix (window 1, fetched once) and writes the same rows of the product (window 2). The body loads both blocks,
  rounds them to the narrower float format, multiplies them into a zero accumulator and stores the whole product
  block. Stated for any contents `V` of the device's buffers at the region's entry and for any float instance:
  what each window's staging buffer holds before and after the body at a point, the body's triple, the pipeline's
  proof data over it, and the body obligation at every point.
-/
import proofs.«150190_j41601053229994_1_alg».proof.Proof.Gen.Kernel.Launch
import proofs.«150190_j41601053229994_1_alg».proof.Proof.Gen.Kernel.Skeleton
import proofs.«150190_j41601053229994_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds their block at every point, for any proof data over `V`'s arrays whose
    body leaves that block in place. -/
theorem before_rows_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the matrix at every point: it is fetched at the first point and its block never
    moves. -/
theorem before_mat_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- the whole block of 10000 rows -/
abbrev rRows : Rect S10000x64 := Rect.unit (s := S10000x64) ![0, 0] S10000x64.size inb_S10000x64_S10000x64_0_0
/-- the whole matrix -/
abbrev rMat : Rect S64x64 := Rect.unit (s := S64x64) ![0, 0] S64x64.size inb_S64x64_S64x64_0_0

/-- What the body leaves in the product's staging buffer, from the two input blocks: its one store, of the whole block. -/
def prodBlock (x0 : Vec F S10000x64 .f32) (x1 : Vec F S64x64 .f32) : Vec F S10000x64 .f32 :=
  View.canon [⟨rRows, k2_pay1 (View.ld x0 rRows) (View.ld x1 rMat)⟩]

/-- That store covers the buffer. -/
theorem cover_prod (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 1000000 in
/-- The body on whole staging buffers, the inputs' at contents `x0`, `x1` and the product's at anything, runs to the
    continuation with the inputs' as they were and the product's at `prodBlock x0 x1`. -/
theorem sound_kernel (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The pipeline's proof data on core `c`: the arrays as the region finds them; after the body at point `t` each input's
    buffer at its block and the product's at `prodBlock` of the two; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => prodBlock (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_rows (c : Dev nD) (t : Fin cfg2.N) : (dat V c).after 0 t = iblk V c 0 t := by dsimp only [dat]
theorem after_mat (c : Dev nD) (t : Fin cfg2.N) : (dat V c).after 1 t = iblk V c 1 t := by dsimp only [dat]
theorem after_prod (c : Dev nD) (t : Fin cfg2.N) : (dat V c).after 2 t = prodBlock (iblk V c 0 t) (iblk V c 1 t) := by dsimp only [dat]

theorem before_rows (c : Dev nD) (t : Fin cfg2.N) (d) : (dat V c).before 0 t d = iblk V c 0 t :=
  before_rows_of V (dat V c) (A_eq V c 0) (after_rows V c) t d
theorem before_mat (c : Dev nD) (t : Fin cfg2.N) (d) : (dat V c).before 1 t d = iblk V c 1 t :=
  before_mat_of V (dat V c) (A_eq V c 1) (after_mat V c) t d

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so the triple applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_mat]
  rw [show (dat V c).Φ t.succ = (dat V c).Φ t.castSucc from rfl,
    show (dat V c).owesAt () t.succ = (dat V c).owesAt () t.castSucc from rfl,
    after_rows, after_mat, after_prod]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.K.Chain.lean ====
/-
  The buffers' contents along the program's run, with what each region leaves NAMED.
  The run is: host operations, region 0, host operations, region 1, host operations, region 2, one last host
  operation. Each region changes one array only (its product) and leaves there what its pipeline's proof data say the
  ten write-backs leave. Starting from the launch memory `m` this fixes every later contents: after region 0 the
  contents before it with the product array replaced, then the host operations' results over that, and so on. The
  conditional frame of this program is stated over unknown region outputs; here they are given these values, and its
  valuations at these values are the ones defined here.
-/
import proofs.«150190_j41601053229994_1_alg».proof.Proof.Gen.Kernel.Regions
import proofs.«150190_j41601053229994_1_alg».proof.Proof.K.Region0
import proofs.«150190_j41601053229994_1_alg».proof.Proof.K.Region1
import proofs.«150190_j41601053229994_1_alg».proof.Proof.K.Region2

set_option maxRecDepth 16384

noncomputable section

namespace Cert.Kernel.Chain

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Before region 0: the launch memory through the first host operations. -/
def U5 (c : Dev nD) : Valuation τ sig (Elt F) := V5 m c

/-- The contents region 0 is entered from, read at the core's references. -/
abbrev E0 : (c : Dev nD) → (b : Ref sig .tc) → Buf (Elt F) ((c : Thread nD τ).loc b) := fun c b => U5 m c b
/-- What region 0 leaves in its product array. -/
def prod0 (c : Dev nD) : Buf (Elt F) ((c : Thread nD τ).loc main_v20) := (Reg0.dat (E0 m) c).arrAt 2 cfg0.N
/-- After region 0. -/
def U6 (c : Dev nD) : Valuation τ sig (Elt F) := Function.update (U5 m c) main_v20 (prod0 m c)
/-- After the host operations that follow it. -/
def U7 (c : Dev nD) : Valuation τ sig (Elt F) := StableHlo.after hostOps1 (U6 m c)

/-- The contents region 1 is entered from. -/
abbrev E1 : (c : Dev nD) → (b : Ref sig .tc) → Buf (Elt F) ((c : Thread nD τ).loc b) := fun c b => U7 m c b
/-- What region 1 leaves in its product array. -/
def prod1 (c : Dev nD) : Buf (Elt F) ((c : Thread nD τ).loc main_v35) := (Reg1.dat (E1 m) c).arrAt 2 cfg1.N
def U8 (c : Dev nD) : Valuation τ sig (Elt F) := Function.update (U7 m c) main_v35 (prod1 m c)
def U9 (c : Dev nD) : Valuation τ sig (Elt F) := StableHlo.after hostOps2 (U8 m c)

/-- The contents region 2 is entered from. -/
abbrev E2 : (c : Dev nD) → (b : Ref sig .tc) → Buf (Elt F) ((c : Thread nD τ).loc b) := fun c b => U9 m c b
/-- What region 2 leaves in its product array. -/
def prod2 (c : Dev nD) : Buf (Elt F) ((c : Thread nD τ).loc main_v50) := (Reg2.dat (E2 m) c).arrAt 2 cfg2.N
def U10 (c : Dev nD) : Valuation τ sig (Elt F) := Function.update (U9 m c) main_v50 (prod2 m c)

/-- What the regions leave, as the conditional frame reads it: after item 5, 7, 9 the contents just defined. -/
def outs : Outs (F := F) := fun J r c =>
  if J = 6 then U6 m c r else if J = 8 then U8 m c r else if J = 10 then U10 m c r else V0 m c r

theorem outs_6 (r : Ref sig .tc) (c : Dev nD) : outs m 6 r c = U6 m c r := rfl
theorem outs_8 (r : Ref sig .tc) (c : Dev nD) : outs m 8 r c = U8 m c r := rfl
theorem outs_10 (r : Ref sig .tc) (c : Dev nD) : outs m 10 r c = U10 m c r := rfl

/-- The product arrays themselves. -/
theorem outs_prod0 (c : Dev nD) : outs m 6 main_v20 c = prod0 m c := by
  rw [outs_6]; unfold U6; exact Function.update_self ..
theorem outs_prod1 (c : Dev nD) : outs m 8 main_v35 c = prod1 m c := by
  rw [outs_8]; unfold U8; exact Function.update_self ..
theorem outs_prod2 (c : Dev nD) : outs m 10 main_v50 c = prod2 m c := by
  rw [outs_10]; unfold U10; exact Function.update_self ..

/-- The conditional frame's valuations at these outputs are the contents defined here. -/
theorem V5_eq (c : Dev nD) : V5 m c = U5 m c := rfl
theorem V6_eq (c : Dev nD) : V6 m (outs m) c = U6 m c := by
  show Function.update (V5 m c) main_v20 (outs m 6 main_v20 c) = U6 m c
  rw [outs_prod0]; rfl
theorem V7_eq (c : Dev nD) : V7 m (outs m) c = U7 m c := by
  show StableHlo.after hostOps1 (V6 m (outs m) c) = U7 m c
  rw [V6_eq]; rfl
theorem V8_eq (c : Dev nD) : V8 m (outs m) c = U8 m c := by
  show Function.update (V7 m (outs m) c) main_v35 (outs m 8 main_v35 c) = U8 m c
  rw [outs_prod1, V7_eq]; rfl
theorem V9_eq (c : Dev nD) : V9 m (outs m) c = U9 m c := by
  show StableHlo.after hostOps2 (V8 m (outs m) c) = U9 m c
  rw [V8_eq]; rfl
theorem V10_eq (c : Dev nD) : V10 m (outs m) c = U10 m c := by
  show Function.update (V9 m (outs m) c) main_v50 (outs m 10 main_v50 c) = U10 m c
  rw [outs_prod2, V9_eq]; rfl

end Cert.Kernel.Chain

end
-- ==== Proof.K.Data.lean ====
/-
  What the three regions' segments share. Between two items of the run a core holds every unscoped buffer whole at the
  contents the run has reached, beside its generator register at some state and nothing owed: that rest state is
  stated here, with every pipeline's proof data (each at the contents its region is entered from), what the launch
  hands every core at the start, and that the rest state ends owing nothing.
-/
import proofs.«150190_j41601053229994_1_alg».proof.Proof.K.Chain

set_option maxRecDepth 16384

noncomputable section

namespace Cert.Kernel.Segs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at the contents its region is entered from. -/
def pdats : (p : Fin 3) → (c : Dev nD) → Dat τ (Elt F) Unit ℕ (UR sig nD τ) ℕ (cfgs p) c
  | ⟨0, _⟩ => fun c => Reg0.dat (Chain.E0 m) c
  | ⟨1, _⟩ => fun c => Reg1.dat (Chain.E1 m) c
  | ⟨2, _⟩ => fun c => Reg2.dat (Chain.E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The launch -/

/-- The launch's ghost state: the pipelines' cells and launch tokens, and nothing else. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes the rest state. -/
theorem hrest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The rest state ends owing nothing. -/
theorem hrest_end (c : Dev nD) : R (F := F) c ⊢ (iprop(∃ W, owes (c : Thread nD τ) (0 : CellTallies nD τ sig Unit) W) : sProp 𝕄) := by
  iintro ⟨-, HO⟩; iexact HO

end Cert.Kernel.Segs

end
-- ==== Proof.K.Seg0.lean ====
/-
  Region 0 as a segment of the program's run. It is entered with every unscoped buffer at the contents before it,
  takes its three arrays out of those buffers, runs its pipeline over the proof data stated for exactly those
  contents, and puts the arrays back: the two it reads as they were, the product at what the ten write-backs leave.
  That is the contents after it.
-/
import proofs.«150190_j41601053229994_1_alg».proof.Proof.K.Data

set_option maxRecDepth 16384

noncomputable section

namespace Cert.Kernel.Seg0

open Cert.Kernel Cert.Kernel.Gen Cert.Kernel.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays of region 0 at its exit: the inputs as entered, the product at what the write-backs leave. -/
theorem exit_arrays (c : Dev nD) (w : Fin cfg0.W) :
    (Reg0.dat (Chain.E0 m) c).arrAt w cfg0.N = Chain.U6 m c (Pipeline.arrRef spec0 w) := by
  match w with
  | ⟨0, _⟩ =>
    exact ((Reg0.dat (Chain.E0 m) c).arrAt_in 0 rfl _).trans ((Reg0.A_eq (Chain.E0 m) c 0).trans
      (by unfold Chain.U6; exact (Function.update_of_ne (StableHlo.devRef_ne_of_ne (by decide)) _ _).symm))
  | ⟨1, _⟩ =>
    exact ((Reg0.dat (Chain.E0 m) c).arrAt_in 1 rfl _).trans ((Reg0.A_eq (Chain.E0 m) c 1).trans
      (by unfold Chain.U6; exact (Function.update_of_ne (StableHlo.devRef_ne_of_ne (by decide)) _ _).symm))
  | ⟨2, _⟩ =>
    unfold Chain.U6 Chain.prod0; exact Eq.symm (Function.update_self ..)

/-- Every other buffer is as the region found it. -/
theorem exit_rest (c : Dev nD) : ∀ b : Ref sig .tc, b ∉ Finset.univ.image (Pipeline.arrRef spec0) →
    Chain.U6 m c b = Chain.E0 m c b := fun b hb => by
  unfold Chain.U6
  exact Function.update_of_ne (StableHlo.devRef_ne_of_ne fun e =>
    hb (Finset.mem_image.mpr ⟨2, Finset.mem_univ _, (show Pipeline.arrRef spec0 2 = b from e.symm)⟩)) _ _

set_option backward.isDefEq.respectTransparency.types false in
/-- Region 0 over the thread state: entered from every unscoped buffer at the contents before it, left at the contents
    after it. Its arrays are split out of the unscoped buffers and put back at the exit contents; the generator register
    goes into the pipeline's invariant and comes out; nothing is owed; the kernel has no semaphore of its own. -/
def reg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Chain.E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (Chain.outs m) c) ∗ R c)
  X c := iprop(∃ r, prngReg c r)
  Y c := iprop(∃ r, prngReg c r)
  Z c := Pipeline.unscopedRest (Ix := Unit) (Name := ℕ) (U := UR sig nD τ) (Lvl := ℕ) spec0 c (Chain.E0 m c)
  hentry c := by
    rw [Pipeline.ownSems0_none, Chain.V5_eq]
    have hsplit := Pipeline.arrays_of_unscopedBufs (p := 0) (pcfgs (F := F)) adm (pdats m) launch0.win launch0.arr_whole c
      ((pdats m 0 c).share_full fun _ => rfl) (Chain.E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [Chain.V6_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Chain.E0 m c) (fun b => Chain.U6 m c b) ((pdats m 0 c).arrAt · cfg0.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Seg0

end
-- ==== Proof.K.Seg1.lean ====
/-
  Region 1 as a segment of the program's run. It is entered with every unscoped buffer at the contents before it,
  takes its three arrays out of those buffers, runs its pipeline over the proof data stated for exactly those
  contents, and puts the arrays back: the two it reads as they were, the product at what the ten write-backs leave.
  That is the contents after it.
-/
import proofs.«150190_j41601053229994_1_alg».proof.Proof.K.Data

set_option maxRecDepth 16384

noncomputable section

namespace Cert.Kernel.Seg1

open Cert.Kernel Cert.Kernel.Gen Cert.Kernel.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays of region 1 at its exit: the inputs as entered, the product at what the write-backs leave. -/
theorem exit_arrays (c : Dev nD) (w : Fin cfg1.W) :
    (Reg1.dat (Chain.E1 m) c).arrAt w cfg1.N = Chain.U8 m c (Pipeline.arrRef spec1 w) := by
  match w with
  | ⟨0, _⟩ =>
    exact ((Reg1.dat (Chain.E1 m) c).arrAt_in 0 rfl _).trans ((Reg1.A_eq (Chain.E1 m) c 0).trans
      (by unfold Chain.U8; exact (Function.update_of_ne (StableHlo.devRef_ne_of_ne (by decide)) _ _).symm))
  | ⟨1, _⟩ =>
    exact ((Reg1.dat (Chain.E1 m) c).arrAt_in 1 rfl _).trans ((Reg1.A_eq (Chain.E1 m) c 1).trans
      (by unfold Chain.U8; exact (Function.update_of_ne (StableHlo.devRef_ne_of_ne (by decide)) _ _).symm))
  | ⟨2, _⟩ =>
    unfold Chain.U8 Chain.prod1; exact Eq.symm (Function.update_self ..)

/-- Every other buffer is as the region found it. -/
theorem exit_rest (c : Dev nD) : ∀ b : Ref sig .tc, b ∉ Finset.univ.image (Pipeline.arrRef spec1) →
    Chain.U8 m c b = Chain.E1 m c b := fun b hb => by
  unfold Chain.U8
  exact Function.update_of_ne (StableHlo.devRef_ne_of_ne fun e =>
    hb (Finset.mem_image.mpr ⟨2, Finset.mem_univ _, (show Pipeline.arrRef spec1 2 = b from e.symm)⟩)) _ _

set_option backward.isDefEq.respectTransparency.types false in
/-- Region 1 over the thread state: entered from every unscoped buffer at the contents before it, left at the contents
    after it. Its arrays are split out of the unscoped buffers and put back at the exit contents; the generator register
    goes into the pipeline's invariant and comes out; nothing is owed; the kernel has no semaphore of its own. -/
def reg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Chain.E1 m) c).loose
  hwaits := Pipeline.hwaits_of_owed_zero _ _ _ _ L lv 1 fun _ _ => rfl
  pre c := iprop(StableHlo.held (c : Thread nD τ) (Pipeline.ucRefs τ sig) (V7 m (Chain.outs m) c) ∗ R c)
  post c := iprop(StableHlo.held (c : Thread nD τ) (Pipeline.ucRefs τ sig) (V8 m (Chain.outs m) c) ∗ R c)
  X c := iprop(∃ r, prngReg c r)
  Y c := iprop(∃ r, prngReg c r)
  Z c := Pipeline.unscopedRest (Ix := Unit) (Name := ℕ) (U := UR sig nD τ) (Lvl := ℕ) spec1 c (Chain.E1 m c)
  hentry c := by
    rw [Pipeline.ownSems0_none, Chain.V7_eq]
    have hsplit := Pipeline.arrays_of_unscopedBufs (p := 1) (pcfgs (F := F)) adm (pdats m) launch1.win launch1.arr_whole c
      ((pdats m 1 c).share_full fun _ => rfl) (Chain.E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [Chain.V8_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Chain.E1 m c) (fun b => Chain.U8 m c b) ((pdats m 1 c).arrAt · cfg1.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Seg1

end
-- ==== Proof.K.Seg2.lean ====
/-
  Region 2 as a segment of the program's run. It is entered with every unscoped buffer at the contents before it,
  takes its three arrays out of those buffers, runs its pipeline over the proof data stated for exactly those
  contents, and puts the arrays back: the two it reads as they were, the product at what the ten write-backs leave.
  That is the contents after it.
-/
import proofs.«150190_j41601053229994_1_alg».proof.Proof.K.Data

set_option maxRecDepth 16384

noncomputable section

namespace Cert.Kernel.Seg2

open Cert.Kernel Cert.Kernel.Gen Cert.Kernel.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays of region 2 at its exit: the inputs as entered, the product at what the write-backs leave. -/
theorem exit_arrays (c : Dev nD) (w : Fin cfg2.W) :
    (Reg2.dat (Chain.E2 m) c).arrAt w cfg2.N = Chain.U10 m c (Pipeline.arrRef spec2 w) := by
  match w with
  | ⟨0, _⟩ =>
    exact ((Reg2.dat (Chain.E2 m) c).arrAt_in 0 rfl _).trans ((Reg2.A_eq (Chain.E2 m) c 0).trans
      (by unfold Chain.U10; exact (Function.update_of_ne (StableHlo.devRef_ne_of_ne (by decide)) _ _).symm))
  | ⟨1, _⟩ =>
    exact ((Reg2.dat (Chain.E2 m) c).arrAt_in 1 rfl _).trans ((Reg2.A_eq (Chain.E2 m) c 1).trans
      (by unfold Chain.U10; exact (Function.update_of_ne (StableHlo.devRef_ne_of_ne (by decide)) _ _).symm))
  | ⟨2, _⟩ =>
    unfold Chain.U10 Chain.prod2; exact Eq.symm (Function.update_self ..)

/-- Every other buffer is as the region found it. -/
theorem exit_rest (c : Dev nD) : ∀ b : Ref sig .tc, b ∉ Finset.univ.image (Pipeline.arrRef spec2) →
    Chain.U10 m c b = Chain.E2 m c b := fun b hb => by
  unfold Chain.U10
  exact Function.update_of_ne (StableHlo.devRef_ne_of_ne fun e =>
    hb (Finset.mem_image.mpr ⟨2, Finset.mem_univ _, (show Pipeline.arrRef spec2 2 = b from e.symm)⟩)) _ _

set_option backward.isDefEq.respectTransparency.types false in
/-- Region 2 over the thread state: entered from every unscoped buffer at the contents before it, left at the contents
    after it. Its arrays are split out of the unscoped buffers and put back at the exit contents; the generator register
    goes into the pipeline's invariant and comes out; nothing is owed; the kernel has no semaphore of its own. -/
def reg : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Chain.E2 m) c).loose
  hwaits := Pipeline.hwaits_of_owed_zero _ _ _ _ L lv 2 fun _ _ => rfl
  pre c := iprop(StableHlo.held (c : Thread nD τ) (Pipeline.ucRefs τ sig) (V9 m (Chain.outs m) c) ∗ R c)
  post c := iprop(StableHlo.held (c : Thread nD τ) (Pipeline.ucRefs τ sig) (V10 m (Chain.outs m) c) ∗ R c)
  X c := iprop(∃ r, prngReg c r)
  Y c := iprop(∃ r, prngReg c r)
  Z c := Pipeline.unscopedRest (Ix := Unit) (Name := ℕ) (U := UR sig nD τ) (Lvl := ℕ) spec2 c (Chain.E2 m c)
  hentry c := by
    rw [Pipeline.ownSems0_none, Chain.V9_eq]
    have hsplit := Pipeline.arrays_of_unscopedBufs (p := 2) (pcfgs (F := F)) adm (pdats m) launch2.win launch2.arr_whole c
      ((pdats m 2 c).share_full fun _ => rfl) (Chain.E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [Chain.V10_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Chain.E2 m c) (fun b => Chain.U10 m c b) ((pdats m 2 c).arrAt · cfg2.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Seg2

end
-- ==== Proof.K.Frame.lean ====
/-
  The program's frame: from any launch memory with zero counters every weakly fair execution ends, nothing faults,
  and the eight argument arrays end as launched. The host side is the generated conditional frame; the three regions
  are the segments stated beside this module, each entered from and left at the contents the run has reached.
-/
import proofs.«150190_j41601053229994_1_alg».proof.Proof.K.Seg0
import proofs.«150190_j41601053229994_1_alg».proof.Proof.K.Seg1
import proofs.«150190_j41601053229994_1_alg».proof.Proof.K.Seg2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.isDefEq.respectTransparency.types false in
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () Segs.𝒱₀ Segs.L Segs.lv (fun _ _ => rfl) ρ (Chain.outs m) (Segs.pdats m)
    0 (fun _ => iprop(emp)) Segs.u₀ Segs.hu₀ (fun _ c => Segs.R c) (Segs.hrest_init ρ) Segs.hrest_end
    (Seg0.reg m) (fun _ => .rfl) (fun _ => .rfl) (Seg1.reg m) (fun _ => .rfl) (fun _ => .rfl)
    (Seg2.reg m) (fun _ => .rfl) (fun _ => .rfl)

end Cert.Kernel.Hand

end
-- ==== Proof.KI.Region0.lean ====
/-
  Region 0 of the program: one linear transform, rows of node features times a 64 x 64 matrix, run block by block.
  The grid has ten points; point t reads rows 10000 t … 10000 t + 9999 of the features (window 0) and the whole
  matrix (window 1, fetched once) and writes the same rows of the product (window 2). The body loads both blocks,
  rounds them to the narrower float format, multiplies them into a zero accumulator and stores the whole product
  block. Stated for any contents `V` of the device's buffers at the region's entry and for any float instance:
  what each window's staging buffer holds before and after the body at a point, the body's triple, the pipeline's
  proof data over it, and the body obligation at every point.
-/
import proofs.«150190_j41601053229994_1_alg».proof.Proof.Gen.KernelIdeal.Launch
import proofs.«150190_j41601053229994_1_alg».proof.Proof.Gen.KernelIdeal.Skeleton
import proofs.«150190_j41601053229994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds their block at every point, for any proof data over `V`'s arrays whose
    body leaves that block in place. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the matrix at every point: it is fetched at the first point and its block never
    moves. -/
theorem before_mat_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- the whole block of 10000 rows -/
abbrev rRows : Rect S10000x64 := Rect.unit (s := S10000x64) ![0, 0] S10000x64.size inb_S10000x64_S10000x64_0_0
/-- the whole matrix -/
abbrev rMat : Rect S64x64 := Rect.unit (s := S64x64) ![0, 0] S64x64.size inb_S64x64_S64x64_0_0

/-- What the body leaves in the product's staging buffer, from the two input blocks: its one store, of the whole block. -/
def prodBlock (x0 : Vec F S10000x64 .f32) (x1 : Vec F S64x64 .f32) : Vec F S10000x64 .f32 :=
  View.canon [⟨rRows, k0_pay1 (View.ld x0 rRows) (View.ld x1 rMat)⟩]

/-- That store covers the buffer. -/
theorem cover_prod (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 1000000 in
/-- The body on whole staging buffers, the inputs' at contents `x0`, `x1` and the product's at anything, runs to the
    continuation with the inputs' as they were and the product's at `prodBlock x0 x1`. -/
theorem sound_kernel (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The pipeline's proof data on core `c`: the arrays as the region finds them; after the body at point `t` each input's
    buffer at its block and the product's at `prodBlock` of the two; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => prodBlock (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_rows (c : Dev nD) (t : Fin cfg0.N) : (dat V c).after 0 t = iblk V c 0 t := by dsimp only [dat]
theorem after_mat (c : Dev nD) (t : Fin cfg0.N) : (dat V c).after 1 t = iblk V c 1 t := by dsimp only [dat]
theorem after_prod (c : Dev nD) (t : Fin cfg0.N) : (dat V c).after 2 t = prodBlock (iblk V c 0 t) (iblk V c 1 t) := by dsimp only [dat]

theorem before_rows (c : Dev nD) (t : Fin cfg0.N) (d) : (dat V c).before 0 t d = iblk V c 0 t :=
  before_rows_of V (dat V c) (A_eq V c 0) (after_rows V c) t d
theorem before_mat (c : Dev nD) (t : Fin cfg0.N) (d) : (dat V c).before 1 t d = iblk V c 1 t :=
  before_mat_of V (dat V c) (A_eq V c 1) (after_mat V c) t d

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_mat]
  rw [show (dat V c).Φ t.succ = (dat V c).Φ t.castSucc from rfl,
    show (dat V c).owesAt () t.succ = (dat V c).owesAt () t.castSucc from rfl,
    after_rows, after_mat, after_prod]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.KI.Region1.lean ====
/-
  Region 1 of the program: one linear transform, rows of node features times a 64 x 64 matrix, run block by block.
  The grid has ten points; point t reads rows 10000 t … 10000 t + 9999 of the features (window 0) and the whole
  matrix (window 1, fetched once) and writes the same rows of the product (window 2). The body loads both blocks,
  rounds them to the narrower float format, multiplies them into a zero accumulator and stores the whole product
  block. Stated for any contents `V` of the device's buffers at the region's entry and for any float instance:
  what each window's staging buffer holds before and after the body at a point, the body's triple, the pipeline's
  proof data over it, and the body obligation at every point.
-/
import proofs.«150190_j41601053229994_1_alg».proof.Proof.Gen.KernelIdeal.Launch
import proofs.«150190_j41601053229994_1_alg».proof.Proof.Gen.KernelIdeal.Skeleton
import proofs.«150190_j41601053229994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature rows' staging buffer holds their block at every point, for any proof data over `V`'s arrays whose
    body leaves that block in place. -/
theorem before_rows_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the matrix at every point: it is fetched at the first point and its block never
    moves. -/
theorem before_mat_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- the whole block of 10000 rows -/
abbrev rRows : Rect S10000x64 := Rect.unit (s := S10000x64) ![0, 0] S10000x64.size inb_S10000x64_S10000x64_0_0
/-- the whole matrix -/
abbrev rMat : Rect S64x64 := Rect.unit (s := S64x64) ![0, 0] S64x64.size inb_S64x64_S64x64_0_0

/-- What the body leaves in the product's staging buffer, from the two input blocks: its one store, of the whole block. -/
def prodBlock (x0 : Vec F S10000x64 .f32) (x1 : Vec F S64x64 .f32) : Vec F S10000x64 .f32 :=
  View.canon [⟨rRows, k1_pay1 (View.ld x0 rRows) (View.ld x1 rMat)⟩]

/-- That store covers the buffer. -/
theorem cover_prod (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 1000000 in
/-- The body on whole staging buffers, the inputs' at contents `x0`, `x1` and the product's at anything, runs to the
    continuation with the inputs' as they were and the product's at `prodBlock x0 x1`. -/
theorem sound_kernel (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The pipeline's proof data on core `c`: the arrays as the region finds them; after the body at point `t` each input's
    buffer at its block and the product's at `prodBlock` of the two; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => prodBlock (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_rows (c : Dev nD) (t : Fin cfg1.N) : (dat V c).after 0 t = iblk V c 0 t := by dsimp only [dat]
theorem after_mat (c : Dev nD) (t : Fin cfg1.N) : (dat V c).after 1 t = iblk V c 1 t := by dsimp only [dat]
theorem after_prod (c : Dev nD) (t : Fin cfg1.N) : (dat V c).after 2 t = prodBlock (iblk V c 0 t) (iblk V c 1 t) := by dsimp only [dat]

theorem before_rows (c : Dev nD) (t : Fin cfg1.N) (d) : (dat V c).before 0 t d = iblk V c 0 t :=
  before_rows_of V (dat V c) (A_eq V c 0) (after_rows V c) t d
theorem before_mat (c : Dev nD) (t : Fin cfg1.N) (d) : (dat V c).before 1 t d = iblk V c 1 t :=
  before_mat_of V (dat V c) (A_eq V c 1) (after_mat V c) t d

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_mat]
  rw [show (dat V c).Φ t.succ = (dat V c).Φ t.castSucc from rfl,
    show (dat V c).owesAt () t.succ = (dat V c).owesAt () t.castSucc from rfl,
    after_rows, after_mat, after_prod]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Region2.lean ====
/-
  Region 2 of the program: one linear transform, rows of node features times a 64 x 64 matrix, run block by block.
  The grid has ten points; point t reads rows 10000 t … 10000 t + 9999 of the features (window 0) and the whole
  matrix (window 1, fetched once) and writes the same rows of the product (window 2). The body loads both blocks,
  rounds them to the narrower float format, multiplies them into a zero accumulator and stores the whole product
  block. Stated for any contents `V` of the device's buffers at the region's entry and for any float instance:
  what each window's staging buffer holds before and after the body at a point, the body's triple, the pipeline's
  proof data over it, and the body obligation at every point.
-/
import proofs.«150190_j41601053229994_1_alg».proof.Proof.Gen.KernelIdeal.Launch
import proofs.«150190_j41601053229994_1_alg».proof.Proof.Gen.KernelIdeal.Skeleton
import proofs.«150190_j41601053229994_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds their block at every point, for any proof data over `V`'s arrays whose
    body leaves that block in place. -/
theorem before_rows_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix's staging buffer holds the matrix at every point: it is fetched at the first point and its block never
    moves. -/
theorem before_mat_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- the whole block of 10000 rows -/
abbrev rRows : Rect S10000x64 := Rect.unit (s := S10000x64) ![0, 0] S10000x64.size inb_S10000x64_S10000x64_0_0
/-- the whole matrix -/
abbrev rMat : Rect S64x64 := Rect.unit (s := S64x64) ![0, 0] S64x64.size inb_S64x64_S64x64_0_0

/-- What the body leaves in the product's staging buffer, from the two input blocks: its one store, of the whole block. -/
def prodBlock (x0 : Vec F S10000x64 .f32) (x1 : Vec F S64x64 .f32) : Vec F S10000x64 .f32 :=
  View.canon [⟨rRows, k2_pay1 (View.ld x0 rRows) (View.ld x1 rMat)⟩]

/-- That store covers the buffer. -/
theorem cover_prod (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 1000000 in
/-- The body on whole staging buffers, the inputs' at contents `x0`, `x1` and the product's at anything, runs to the
    continuation with the inputs' as they were and the product's at `prodBlock x0 x1`. -/
theorem sound_kernel (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodBlock x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The pipeline's proof data on core `c`: the arrays as the region finds them; after the body at point `t` each input's
    buffer at its block and the product's at `prodBlock` of the two; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => prodBlock (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_rows (c : Dev nD) (t : Fin cfg2.N) : (dat V c).after 0 t = iblk V c 0 t := by dsimp only [dat]
theorem after_mat (c : Dev nD) (t : Fin cfg2.N) : (dat V c).after 1 t = iblk V c 1 t := by dsimp only [dat]
theorem after_prod (c : Dev nD) (t : Fin cfg2.N) : (dat V c).after 2 t = prodBlock (iblk V c 0 t) (iblk V c 1 t) := by dsimp only [dat]

theorem before_rows (c : Dev nD) (t : Fin cfg2.N) (d) : (dat V c).before 0 t d = iblk V c 0 t :=
  before_rows_of V (dat V c) (A_eq V c 0) (after_rows V c) t d
theorem before_mat (c : Dev nD) (t : Fin cfg2.N) (d) : (dat V c).before 1 t d = iblk V c 1 t :=
  before_mat_of V (dat V c) (A_eq V c 1) (after_mat V c) t d

/-- What the body is called with at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so the triple applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_mat]
  rw [show (dat V c).Φ t.succ = (dat V c).Φ t.castSucc from rfl,
    show (dat V c).owesAt () t.succ = (dat V c).owesAt () t.castSucc from rfl,
    after_rows, after_mat, after_prod]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.KI.Chain.lean ====
/-
  The buffers' contents along the program's run, with what each region leaves NAMED.
  The run is: host operations, region 0, host operations, region 1, host operations, region 2, one last host
  operation. Each region changes one array only (its product) and leaves there what its pipeline's proof data say the
  ten write-backs leave. Starting from the launch memory `m` this fixes every later contents: after region 0 the
  contents before it with the product array replaced, then the host operations' results over that, and so on. The
  conditional frame of this program is stated over unknown region outputs; here they are given these values, and its
  valuations at these values are the ones defined here.
-/
import proofs.«150190_j41601053229994_1_alg».proof.Proof.Gen.KernelIdeal.Regions
import proofs.«150190_j41601053229994_1_alg».proof.Proof.KI.Region0
import proofs.«150190_j41601053229994_1_alg».proof.Proof.KI.Region1
import proofs.«150190_j41601053229994_1_alg».proof.Proof.KI.Region2

set_option maxRecDepth 16384

noncomputable section

namespace Cert.KernelIdeal.Chain

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Before region 0: the launch memory through the first host operations. -/
def U5 (c : Dev nD) : Valuation τ sig (Elt F) := V5 m c

/-- The contents region 0 is entered from, read at the core's references. -/
abbrev E0 : (c : Dev nD) → (b : Ref sig .tc) → Buf (Elt F) ((c : Thread nD τ).loc b) := fun c b => U5 m c b
/-- What region 0 leaves in its product array. -/
def prod0 (c : Dev nD) : Buf (Elt F) ((c : Thread nD τ).loc main_v20) := (Reg0.dat (E0 m) c).arrAt 2 cfg0.N
/-- After region 0. -/
def U6 (c : Dev nD) : Valuation τ sig (Elt F) := Function.update (U5 m c) main_v20 (prod0 m c)
/-- After the host operations that follow it. -/
def U7 (c : Dev nD) : Valuation τ sig (Elt F) := StableHlo.after hostOps1 (U6 m c)

/-- The contents region 1 is entered from. -/
abbrev E1 : (c : Dev nD) → (b : Ref sig .tc) → Buf (Elt F) ((c : Thread nD τ).loc b) := fun c b => U7 m c b
/-- What region 1 leaves in its product array. -/
def prod1 (c : Dev nD) : Buf (Elt F) ((c : Thread nD τ).loc main_v35) := (Reg1.dat (E1 m) c).arrAt 2 cfg1.N
def U8 (c : Dev nD) : Valuation τ sig (Elt F) := Function.update (U7 m c) main_v35 (prod1 m c)
def U9 (c : Dev nD) : Valuation τ sig (Elt F) := StableHlo.after hostOps2 (U8 m c)

/-- The contents region 2 is entered from. -/
abbrev E2 : (c : Dev nD) → (b : Ref sig .tc) → Buf (Elt F) ((c : Thread nD τ).loc b) := fun c b => U9 m c b
/-- What region 2 leaves in its product array. -/
def prod2 (c : Dev nD) : Buf (Elt F) ((c : Thread nD τ).loc main_v50) := (Reg2.dat (E2 m) c).arrAt 2 cfg2.N
def U10 (c : Dev nD) : Valuation τ sig (Elt F) := Function.update (U9 m c) main_v50 (prod2 m c)

/-- What the regions leave, as the conditional frame reads it: after item 5, 7, 9 the contents just defined. -/
def outs : Outs (F := F) := fun J r c =>
  if J = 6 then U6 m c r else if J = 8 then U8 m c r else if J = 10 then U10 m c r else V0 m c r

theorem outs_6 (r : Ref sig .tc) (c : Dev nD) : outs m 6 r c = U6 m c r := rfl
theorem outs_8 (r : Ref sig .tc) (c : Dev nD) : outs m 8 r c = U8 m c r := rfl
theorem outs_10 (r : Ref sig .tc) (c : Dev nD) : outs m 10 r c = U10 m c r := rfl

/-- The product arrays themselves. -/
theorem outs_prod0 (c : Dev nD) : outs m 6 main_v20 c = prod0 m c := by
  rw [outs_6]; unfold U6; exact Function.update_self ..
theorem outs_prod1 (c : Dev nD) : outs m 8 main_v35 c = prod1 m c := by
  rw [outs_8]; unfold U8; exact Function.update_self ..
theorem outs_prod2 (c : Dev nD) : outs m 10 main_v50 c = prod2 m c := by
  rw [outs_10]; unfold U10; exact Function.update_self ..

/-- The conditional frame's valuations at these outputs are the contents defined here. -/
theorem V5_eq (c : Dev nD) : V5 m c = U5 m c := rfl
theorem V6_eq (c : Dev nD) : V6 m (outs m) c = U6 m c := by
  show Function.update (V5 m c) main_v20 (outs m 6 main_v20 c) = U6 m c
  rw [outs_prod0]; rfl
theorem V7_eq (c : Dev nD) : V7 m (outs m) c = U7 m c := by
  show StableHlo.after hostOps1 (V6 m (outs m) c) = U7 m c
  rw [V6_eq]; rfl
theorem V8_eq (c : Dev nD) : V8 m (outs m) c = U8 m c := by
  show Function.update (V7 m (outs m) c) main_v35 (outs m 8 main_v35 c) = U8 m c
  rw [outs_prod1, V7_eq]; rfl
theorem V9_eq (c : Dev nD) : V9 m (outs m) c = U9 m c := by
  show StableHlo.after hostOps2 (V8 m (outs m) c) = U9 m c
  rw [V8_eq]; rfl
theorem V10_eq (c : Dev nD) : V10 m (outs m) c = U10 m c := by
  show Function.update (V9 m (outs m) c) main_v50 (outs m 10 main_v50 c) = U10 m c
  rw [outs_prod2, V9_eq]; rfl

end Cert.KernelIdeal.Chain

end
-- ==== Proof.KI.Data.lean ====
/-
  What the three regions' segments share. Between two items of the run a core holds every unscoped buffer whole at the
  contents the run has reached, beside its generator register at some state and nothing owed: that rest state is
  stated here, with every pipeline's proof data (each at the contents its region is entered from), what the launch
  hands every core at the start, and that the rest state ends owing nothing.
-/
import proofs.«150190_j41601053229994_1_alg».proof.Proof.KI.Chain

set_option maxRecDepth 16384

noncomputable section

namespace Cert.KernelIdeal.Segs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at the contents its region is entered from. -/
def pdats : (p : Fin 3) → (c : Dev nD) → Dat τ (Elt F) Unit ℕ (UR sig nD τ) ℕ (cfgs p) c
  | ⟨0, _⟩ => fun c => Reg0.dat (Chain.E0 m) c
  | ⟨1, _⟩ => fun c => Reg1.dat (Chain.E1 m) c
  | ⟨2, _⟩ => fun c => Reg2.dat (Chain.E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The launch -/

/-- The launch's ghost state: the pipelines' cells and launch tokens, and nothing else. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes the rest state. -/
theorem hrest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The rest state ends owing nothing. -/
theorem hrest_end (c : Dev nD) : R (F := F) c ⊢ (iprop(∃ W, owes (c : Thread nD τ) (0 : CellTallies nD τ sig Unit) W) : sProp 𝕄) := by
  iintro ⟨-, HO⟩; iexact HO

end Cert.KernelIdeal.Segs

end
-- ==== Proof.KI.Seg0.lean ====
/-
  Region 0 as a segment of the program's run. It is entered with every unscoped buffer at the contents before it,
  takes its three arrays out of those buffers, runs its pipeline over the proof data stated for exactly those
  contents, and puts the arrays back: the two it reads as they were, the product at what the ten write-backs leave.
  That is the contents after it.
-/
import proofs.«150190_j41601053229994_1_alg».proof.Proof.KI.Data

set_option maxRecDepth 16384

noncomputable section

namespace Cert.KernelIdeal.Seg0

open Cert.KernelIdeal Cert.KernelIdeal.Gen Cert.KernelIdeal.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays of region 0 at its exit: the inputs as entered, the product at what the write-backs leave. -/
theorem exit_arrays (c : Dev nD) (w : Fin cfg0.W) :
    (Reg0.dat (Chain.E0 m) c).arrAt w cfg0.N = Chain.U6 m c (Pipeline.arrRef spec0 w) := by
  match w with
  | ⟨0, _⟩ =>
    exact ((Reg0.dat (Chain.E0 m) c).arrAt_in 0 rfl _).trans ((Reg0.A_eq (Chain.E0 m) c 0).trans
      (by unfold Chain.U6; exact (Function.update_of_ne (StableHlo.devRef_ne_of_ne (by decide)) _ _).symm))
  | ⟨1, _⟩ =>
    exact ((Reg0.dat (Chain.E0 m) c).arrAt_in 1 rfl _).trans ((Reg0.A_eq (Chain.E0 m) c 1).trans
      (by unfold Chain.U6; exact (Function.update_of_ne (StableHlo.devRef_ne_of_ne (by decide)) _ _).symm))
  | ⟨2, _⟩ =>
    unfold Chain.U6 Chain.prod0; exact Eq.symm (Function.update_self ..)

/-- Every other buffer is as the region found it. -/
theorem exit_rest (c : Dev nD) : ∀ b : Ref sig .tc, b ∉ Finset.univ.image (Pipeline.arrRef spec0) →
    Chain.U6 m c b = Chain.E0 m c b := fun b hb => by
  unfold Chain.U6
  exact Function.update_of_ne (StableHlo.devRef_ne_of_ne fun e =>
    hb (Finset.mem_image.mpr ⟨2, Finset.mem_univ _, (show Pipeline.arrRef spec0 2 = b from e.symm)⟩)) _ _

set_option backward.isDefEq.respectTransparency.types false in
/-- Region 0 over the thread state: entered from every unscoped buffer at the contents before it, left at the contents
    after it. Its arrays are split out of the unscoped buffers and put back at the exit contents; the generator register
    goes into the pipeline's invariant and comes out; nothing is owed; the kernel has no semaphore of its own. -/
def reg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Chain.E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (Chain.outs m) c) ∗ R c)
  X c := iprop(∃ r, prngReg c r)
  Y c := iprop(∃ r, prngReg c r)
  Z c := Pipeline.unscopedRest (Ix := Unit) (Name := ℕ) (U := UR sig nD τ) (Lvl := ℕ) spec0 c (Chain.E0 m c)
  hentry c := by
    rw [Pipeline.ownSems0_none, Chain.V5_eq]
    have hsplit := Pipeline.arrays_of_unscopedBufs (p := 0) (pcfgs (F := F)) adm (pdats m) launch0.win launch0.arr_whole c
      ((pdats m 0 c).share_full fun _ => rfl) (Chain.E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [Chain.V6_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Chain.E0 m c) (fun b => Chain.U6 m c b) ((pdats m 0 c).arrAt · cfg0.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Seg0

end
-- ==== Proof.KI.Seg1.lean ====
/-
  Region 1 as a segment of the program's run. It is entered with every unscoped buffer at the contents before it,
  takes its three arrays out of those buffers, runs its pipeline over the proof data stated for exactly those
  contents, and puts the arrays back: the two it reads as they were, the product at what the ten write-backs leave.
  That is the contents after it.
-/
import proofs.«150190_j41601053229994_1_alg».proof.Proof.KI.Data

set_option maxRecDepth 16384

noncomputable section

namespace Cert.KernelIdeal.Seg1

open Cert.KernelIdeal Cert.KernelIdeal.Gen Cert.KernelIdeal.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays of region 1 at its exit: the inputs as entered, the product at what the write-backs leave. -/
theorem exit_arrays (c : Dev nD) (w : Fin cfg1.W) :
    (Reg1.dat (Chain.E1 m) c).arrAt w cfg1.N = Chain.U8 m c (Pipeline.arrRef spec1 w) := by
  match w with
  | ⟨0, _⟩ =>
    exact ((Reg1.dat (Chain.E1 m) c).arrAt_in 0 rfl _).trans ((Reg1.A_eq (Chain.E1 m) c 0).trans
      (by unfold Chain.U8; exact (Function.update_of_ne (StableHlo.devRef_ne_of_ne (by decide)) _ _).symm))
  | ⟨1, _⟩ =>
    exact ((Reg1.dat (Chain.E1 m) c).arrAt_in 1 rfl _).trans ((Reg1.A_eq (Chain.E1 m) c 1).trans
      (by unfold Chain.U8; exact (Function.update_of_ne (StableHlo.devRef_ne_of_ne (by decide)) _ _).symm))
  | ⟨2, _⟩ =>
    unfold Chain.U8 Chain.prod1; exact Eq.symm (Function.update_self ..)

/-- Every other buffer is as the region found it. -/
theorem exit_rest (c : Dev nD) : ∀ b : Ref sig .tc, b ∉ Finset.univ.image (Pipeline.arrRef spec1) →
    Chain.U8 m c b = Chain.E1 m c b := fun b hb => by
  unfold Chain.U8
  exact Function.update_of_ne (StableHlo.devRef_ne_of_ne fun e =>
    hb (Finset.mem_image.mpr ⟨2, Finset.mem_univ _, (show Pipeline.arrRef spec1 2 = b from e.symm)⟩)) _ _

set_option backward.isDefEq.respectTransparency.types false in
/-- Region 1 over the thread state: entered from every unscoped buffer at the contents before it, left at the contents
    after it. Its arrays are split out of the unscoped buffers and put back at the exit contents; the generator register
    goes into the pipeline's invariant and comes out; nothing is owed; the kernel has no semaphore of its own. -/
def reg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Chain.E1 m) c).loose
  hwaits := Pipeline.hwaits_of_owed_zero _ _ _ _ L lv 1 fun _ _ => rfl
  pre c := iprop(StableHlo.held (c : Thread nD τ) (Pipeline.ucRefs τ sig) (V7 m (Chain.outs m) c) ∗ R c)
  post c := iprop(StableHlo.held (c : Thread nD τ) (Pipeline.ucRefs τ sig) (V8 m (Chain.outs m) c) ∗ R c)
  X c := iprop(∃ r, prngReg c r)
  Y c := iprop(∃ r, prngReg c r)
  Z c := Pipeline.unscopedRest (Ix := Unit) (Name := ℕ) (U := UR sig nD τ) (Lvl := ℕ) spec1 c (Chain.E1 m c)
  hentry c := by
    rw [Pipeline.ownSems0_none, Chain.V7_eq]
    have hsplit := Pipeline.arrays_of_unscopedBufs (p := 1) (pcfgs (F := F)) adm (pdats m) launch1.win launch1.arr_whole c
      ((pdats m 1 c).share_full fun _ => rfl) (Chain.E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [Chain.V8_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Chain.E1 m c) (fun b => Chain.U8 m c b) ((pdats m 1 c).arrAt · cfg1.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Seg1

end
-- ==== Proof.KI.Seg2.lean ====
/-
  Region 2 as a segment of the program's run. It is entered with every unscoped buffer at the contents before it,
  takes its three arrays out of those buffers, runs its pipeline over the proof data stated for exactly those
  contents, and puts the arrays back: the two it reads as they were, the product at what the ten write-backs leave.
  That is the contents after it.
-/
import proofs.«150190_j41601053229994_1_alg».proof.Proof.KI.Data

set_option maxRecDepth 16384

noncomputable section

namespace Cert.KernelIdeal.Seg2

open Cert.KernelIdeal Cert.KernelIdeal.Gen Cert.KernelIdeal.Segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays of region 2 at its exit: the inputs as entered, the product at what the write-backs leave. -/
theorem exit_arrays (c : Dev nD) (w : Fin cfg2.W) :
    (Reg2.dat (Chain.E2 m) c).arrAt w cfg2.N = Chain.U10 m c (Pipeline.arrRef spec2 w) := by
  match w with
  | ⟨0, _⟩ =>
    exact ((Reg2.dat (Chain.E2 m) c).arrAt_in 0 rfl _).trans ((Reg2.A_eq (Chain.E2 m) c 0).trans
      (by unfold Chain.U10; exact (Function.update_of_ne (StableHlo.devRef_ne_of_ne (by decide)) _ _).symm))
  | ⟨1, _⟩ =>
    exact ((Reg2.dat (Chain.E2 m) c).arrAt_in 1 rfl _).trans ((Reg2.A_eq (Chain.E2 m) c 1).trans
      (by unfold Chain.U10; exact (Function.update_of_ne (StableHlo.devRef_ne_of_ne (by decide)) _ _).symm))
  | ⟨2, _⟩ =>
    unfold Chain.U10 Chain.prod2; exact Eq.symm (Function.update_self ..)

/-- Every other buffer is as the region found it. -/
theorem exit_rest (c : Dev nD) : ∀ b : Ref sig .tc, b ∉ Finset.univ.image (Pipeline.arrRef spec2) →
    Chain.U10 m c b = Chain.E2 m c b := fun b hb => by
  unfold Chain.U10
  exact Function.update_of_ne (StableHlo.devRef_ne_of_ne fun e =>
    hb (Finset.mem_image.mpr ⟨2, Finset.mem_univ _, (show Pipeline.arrRef spec2 2 = b from e.symm)⟩)) _ _

set_option backward.isDefEq.respectTransparency.types false in
/-- Region 2 over the thread state: entered from every unscoped buffer at the contents before it, left at the contents
    after it. Its arrays are split out of the unscoped buffers and put back at the exit contents; the generator register
    goes into the pipeline's invariant and comes out; nothing is owed; the kernel has no semaphore of its own. -/
def reg : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (Chain.E2 m) c).loose
  hwaits := Pipeline.hwaits_of_owed_zero _ _ _ _ L lv 2 fun _ _ => rfl
  pre c := iprop(StableHlo.held (c : Thread nD τ) (Pipeline.ucRefs τ sig) (V9 m (Chain.outs m) c) ∗ R c)
  post c := iprop(StableHlo.held (c : Thread nD τ) (Pipeline.ucRefs τ sig) (V10 m (Chain.outs m) c) ∗ R c)
  X c := iprop(∃ r, prngReg c r)
  Y c := iprop(∃ r, prngReg c r)
  Z c := Pipeline.unscopedRest (Ix := Unit) (Name := ℕ) (U := UR sig nD τ) (Lvl := ℕ) spec2 c (Chain.E2 m c)
  hentry c := by
    rw [Pipeline.ownSems0_none, Chain.V9_eq]
    have hsplit := Pipeline.arrays_of_unscopedBufs (p := 2) (pcfgs (F := F)) adm (pdats m) launch2.win launch2.arr_whole c
      ((pdats m 2 c).share_full fun _ => rfl) (Chain.E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [Chain.V10_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Chain.E2 m c) (fun b => Chain.U10 m c b) ((pdats m 2 c).arrAt · cfg2.N) (exit_arrays m c) (exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Seg2

end
-- ==== Proof.KI.Frame.lean ====
/-
  The program's frame: from any launch memory with zero counters every weakly fair execution ends, nothing faults,
  and the eight argument arrays end as launched. The host side is the generated conditional frame; the three regions
  are the segments stated beside this module, each entered from and left at the contents the run has reached.
-/
import proofs.«150190_j41601053229994_1_alg».proof.Proof.KI.Seg0
import proofs.«150190_j41601053229994_1_alg».proof.Proof.KI.Seg1
import proofs.«150190_j41601053229994_1_alg».proof.Proof.KI.Seg2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.isDefEq.respectTransparency.types false in
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () Segs.𝒱₀ Segs.L Segs.lv (fun _ _ => rfl) ρ (Chain.outs m) (Segs.pdats m)
    0 (fun _ => iprop(emp)) Segs.u₀ Segs.hu₀ (fun _ c => Segs.R c) (Segs.hrest_init ρ) Segs.hrest_end
    (Seg0.reg m) (fun _ => .rfl) (fun _ => .rfl) (Seg1.reg m) (fun _ => .rfl) (fun _ => .rfl)
    (Seg2.reg m) (fun _ => .rfl) (fun _ => .rfl)

end Cert.KernelIdeal.Hand

end
-- ==== Proof.KI.RunAll.lean ====
/-
  The program's run with every buffer named: every weakly fair execution ends, nothing faults, and each unscoped
  buffer of every core ends at the last contents the run reaches, the three product arrays at what their regions'
  write-backs leave.
-/
import proofs.«150190_j41601053229994_1_alg».proof.Proof.KI.Seg0
import proofs.«150190_j41601053229994_1_alg».proof.Proof.KI.Seg1
import proofs.«150190_j41601053229994_1_alg».proof.Proof.KI.Seg2
import proofs.«150190_j41601053229994_1_alg».proof.Proof.KI.RunCond

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.isDefEq.respectTransparency.types false in
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V11 m (Chain.outs m) c b) :=
  GenP.run_cond m emb₁ () Segs.𝒱₀ Segs.L Segs.lv (fun _ _ => rfl) ρ (Chain.outs m) (Segs.pdats m)
    0 (fun _ => iprop(emp)) Segs.u₀ Segs.hu₀ (fun _ c => Segs.R c) (Segs.hrest_init ρ) Segs.hrest_end
    (Seg0.reg m) (fun _ => .rfl) (fun _ => .rfl) (Seg1.reg m) (fun _ => .rfl) (fun _ => .rfl)
    (Seg2.reg m) (fun _ => .rfl) (fun _ => .rfl)

end Cert.KernelIdeal.Hand

end
-- ==== Proof.Spec.lean ====
/-
  What both programs compute, as functions of the argument arrays, over the extended reals or over words alike.

  A graph of 100000 nodes and 1000000 edges; every edge e has a source `src e`, a destination `dst e` and a type
  `etype e` (counted from one). A table of 8 edge-type weights is scaled by ten and leaky-rectified (slope 1/100
  below zero); edge e weighs the table's row `etype e - 1`. The weighted in-degree of a node is the sum of the
  weights of the edges that end at it; the node's norm is that degree, raised to at least one, to the power -1/2.
  One hop sends node features h to `norm * (sum over edges into the node of (norm * h) at the edge's source)`.
  The result lays side by side `h0 W0`, `h1 W1`, `h2 W2` with h0 the given features and h(j+1) the hop of h(j).

  An index that is negative is first moved up by the extent of the axis it reads (8 for the table, 100000 for the
  nodes); what the gather and the scatter-add then do with an index still outside the axis is theirs to say and is
  the same on both sides, so nothing here restricts the indices.

  Every function takes the shape relations its operations ask for as one bundle of propositions, so two readers who
  each hold their own evidence for them state the same function.
-/
import Idealize.ShloMosaic.PureOps.Ideal

noncomputable section

namespace Cert.Spec

open Idealize.ShloMosaic

/-- node features, 64 per node -/
abbrev SNode64 : Shape := ⟨2, ![100000, 64]⟩
/-- the edge-type weights -/
abbrev STab : Shape := ⟨2, ![8, 1]⟩
/-- one hop's output transform -/
abbrev SW : Shape := ⟨2, ![64, 64]⟩
/-- one entry per edge -/
abbrev SEdge : Shape := ⟨1, ![1000000]⟩
abbrev SScal : Shape := ⟨0, ![]⟩
abbrev SEdge1 : Shape := ⟨2, ![1000000, 1]⟩
/-- one entry per node -/
abbrev SNode : Shape := ⟨1, ![100000]⟩
abbrev SNode1 : Shape := ⟨2, ![100000, 1]⟩
/-- the features gathered along the edges -/
abbrev SEdge64 : Shape := ⟨2, ![1000000, 64]⟩
/-- the three transforms side by side -/
abbrev SOut : Shape := ⟨2, ![100000, 192]⟩

/-- The shape relations the operations below ask for. -/
structure Side : Prop where
  bTab : SScal.BroadcastsInDim STab (![] : Fin 0 → Fin STab.rank)
  bEdge : SScal.BroadcastsInDim SEdge (![] : Fin 0 → Fin SEdge.rank)
  bEdge1 : SEdge.BroadcastsInDim SEdge1 (![0] : Fin 1 → Fin SEdge1.rank)
  cEdge : SEdge1.ShapeCasts SEdge
  bNode : SScal.BroadcastsInDim SNode (![] : Fin 0 → Fin SNode.rank)
  bNode1 : SNode.BroadcastsInDim SNode1 (![0] : Fin 1 → Fin SNode1.rank)
  bNode64 : SNode1.BroadcastsInDim SNode64 (![0, 1] : Fin 2 → Fin SNode64.rank)
  bZero64 : SScal.BroadcastsInDim SNode64 (![] : Fin 0 → Fin SNode64.rank)
  cat : Shape.Concatenates [SNode64, SNode64, SNode64] SOut 1
  gTab : GatherDims.WF STab SEdge1 SEdge1 [1] [0] [] [0] [] 1 ![1, 1]
  sNode : ScatterDims.WF SNode SEdge1 SEdge [] [0] [0] 1
  dot : DotDims.WF SNode64 SW SNode64 [1] [0] [0] [1] [] []
  gNode : GatherDims.WF SNode64 SEdge1 SEdge64 [1] [0] [] [0] [] 1 ![1, 64]
  sNode64 : ScatterDims.WF SNode64 SEdge1 SEdge64 [1] [0] [0] 1

variable {F : FTy → Type} [FloatOps F] (s : Side)

/-- a row of the weight table per edge -/
def tabGather : GatherDims STab SEdge1 SEdge1 where
  offsetDims := [1]
  collapsedSliceDims := [0]
  operandBatchingDims := []
  startIndicesBatchingDims := []
  startIndexMap := [0]
  indexVectorDim := 1
  sliceSizes := ![1, 1]
  wf := s.gTab

/-- an edge's weight added at its destination node -/
def degScatter : ScatterDims SNode SEdge1 SEdge where
  updateWindowDims := []
  insertedWindowDims := [0]
  scatterDimsToOperandDims := [0]
  indexVectorDim := 1
  wf := s.sNode

/-- features by a 64 x 64 transform: rows by columns -/
def rowsByCols : DotDims SNode64 SW SNode64 where
  lhsContracting := [1]
  rhsContracting := [0]
  lhsNonContracting := [0]
  rhsNonContracting := [1]
  lhsBatch := []
  rhsBatch := []
  wf := s.dot

/-- a node's feature row per edge -/
def rowGather : GatherDims SNode64 SEdge1 SEdge64 where
  offsetDims := [1]
  collapsedSliceDims := [0]
  operandBatchingDims := []
  startIndicesBatchingDims := []
  startIndexMap := [0]
  indexVectorDim := 1
  sliceSizes := ![1, 64]
  wf := s.gNode

/-- an edge's feature row added at its destination node -/
def rowScatter : ScatterDims SNode64 SEdge1 SEdge64 where
  updateWindowDims := [1]
  insertedWindowDims := [0]
  scatterDimsToOperandDims := [0]
  indexVectorDim := 1
  wf := s.sNode64

/-- The weight table times ten. -/
def scaledTable (ew : FVec F STab .f32) : FVec F STab .f32 :=
  mulf ew (broadcastInDim STab ![] s.bTab (constant SScal .f32 0x41200000#32))

/-- The leaky rectifier on the scaled table: an entry at least zero is kept, another is multiplied by the word
    nearest 1/100. -/
def table (ew : FVec F STab .f32) : FVec F STab .f32 :=
  select (cmpf .oge (scaledTable s ew) (broadcastInDim STab ![] s.bTab (constant SScal .f32 0x00000000#32)))
    (scaledTable s ew)
    (mulf (broadcastInDim STab ![] s.bTab (constant SScal .f32 0x3C23D70A#32)) (scaledTable s ew))

/-- An index below zero is moved up by `n`; another is kept. -/
def wrap (n : BitVec 32) (i : IVec SEdge 32) : IVec SEdge 32 :=
  select (cmpi .slt i (broadcastInDim SEdge ![] s.bEdge (constantI SScal 32 0#32)))
    (addi i (broadcastInDim SEdge ![] s.bEdge (constantI SScal 32 n))) i

/-- Every edge's weight: the table's row at the edge's type less one. -/
def edgeWeight (ew : FVec F STab .f32) (etype : IVec SEdge 32) : FVec F SEdge .f32 :=
  shapeCast SEdge
    (Host.gather (tabGather s) (table s ew)
      (broadcastInDim SEdge1 ![0] s.bEdge1
        (wrap s 8#32 (subi etype (broadcastInDim SEdge ![] s.bEdge (constantI SScal 32 1#32))))))
    s.cEdge

/-- Every node's weighted in-degree. -/
def degree (ew : FVec F STab .f32) (dst etype : IVec SEdge 32) : FVec F SNode .f32 :=
  Host.scatterAdd (degScatter s) (broadcastInDim SNode ![] s.bNode (constant SScal .f32 0x00000000#32))
    (broadcastInDim SEdge1 ![0] s.bEdge1 dst) (edgeWeight s ew etype)

/-- Every node's norm, as a column: the degree raised to at least one, to the power -1/2. -/
def normCol (ew : FVec F STab .f32) (dst etype : IVec SEdge 32) : FVec F SNode1 .f32 :=
  broadcastInDim SNode1 ![0] s.bNode1
    (Host.powf
      (maximumf (broadcastInDim SNode ![] s.bNode (id (constant SScal .f32 0x3F800000#32))) (degree s ew dst etype))
      (broadcastInDim SNode ![] s.bNode (constant SScal .f32 0xBF000000#32)))

/-- One hop: scale by the norm, add every edge's source row at its destination, scale by the norm again. -/
def hop (n : FVec F SNode1 .f32) (src dst : IVec SEdge 32) (h : FVec F SNode64 .f32) : FVec F SNode64 .f32 :=
  mulf
    (Host.scatterAdd (rowScatter s) (broadcastInDim SNode64 ![] s.bZero64 (constant SScal .f32 0x00000000#32))
      (broadcastInDim SEdge1 ![0] s.bEdge1 dst)
      (Host.gather (rowGather s) (mulf h (broadcastInDim SNode64 ![0, 1] s.bNode64 n))
        (broadcastInDim SEdge1 ![0] s.bEdge1 (wrap s 100000#32 src))))
    (broadcastInDim SNode64 ![0, 1] s.bNode64 n)

/-- Features times a transform, on the host. -/
def transform (h : FVec F SNode64 .f32) (w : FVec F SW .f32) : FVec F SNode64 .f32 :=
  Host.dotGeneral (rowsByCols s) none h w

/-- Three blocks of 64 columns side by side. -/
def sideBySide (a b c : FVec F SNode64 .f32) : FVec F SOut .f32 :=
  concatenate SOut 1 [⟨SNode64, a⟩, ⟨SNode64, b⟩, ⟨SNode64, c⟩] s.cat

/-- The whole result. -/
def result (feats : FVec F SNode64 .f32) (ew : FVec F STab .f32) (w0 w1 w2 : FVec F SW .f32)
    (src dst etype : IVec SEdge 32) : FVec F SOut .f32 :=
  sideBySide s (transform s feats w0)
    (transform s (hop s (normCol s ew dst etype) src dst feats) w1)
    (transform s (hop s (normCol s ew dst etype) src dst (hop s (normCol s ew dst etype) src dst feats)) w2)

end Cert.Spec

end
-- ==== Proof.KIStretch.lean ====
import proofs.«150190_j41601053229994_1_alg».proof.Proof.Gen.KernelIdeal.Regions
import proofs.«150190_j41601053229994_1_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (outs : Outs (F := F))

/-- The shape relations of the shared mathematics hold. -/
theorem side : Cert.Spec.Side where
  bTab := bcast_S_S8x1
  bEdge := bcast_S_S1000000
  bEdge1 := bcast_S1000000_S1000000x1_0
  cEdge := shapeCasts_S1000000x1_S1000000
  bNode := bcast_S_S100000
  bNode1 := bcast_S100000_S100000x1_0
  bNode64 := bcast_S100000x1_S100000x64_0_1
  bZero64 := bcast_S_S100000x64
  cat := concatenates_S100000x64_S100000x64_S100000x64_S100000x192_d1
  gTab := gather_S8x1_S1000000x1_S1000000x1_1_0_n_n_0_1_11_wf
  sNode := scatter_S100000_S1000000x1_S1000000_n_0_0_1_wf
  dot := by decide
  gNode := gather_S100000x64_S1000000x1_S1000000x64_1_0_n_n_0_1_164_wf
  sNode64 := scatter_S100000x64_S1000000x1_S1000000x64_1_0_0_1_wf

/-! ## Each host stretch, over any contents it starts from -/

/-- The first stretch leaves the weight table times ten. -/
private theorem st0 (W : Valuation τ sig (Elt F)) :
    StableHlo.after hostOps0 W main_v1 = Cert.Spec.scaledTable side (W main_arg1) := by
  after_results
  rfl

/-- The second stretch is the leaky rectifier on what the first left. -/
private theorem st1 (W : Valuation τ sig (Elt F)) :
    StableHlo.after hostOps0_1 W main_v2
      = select (cmpf .oge (W main_v1) (broadcastInDim Cert.Spec.STab ![] side.bTab (constant Cert.Spec.SScal .f32 0x00000000#32)))
          (W main_v1)
          (mulf (broadcastInDim Cert.Spec.STab ![] side.bTab (constant Cert.Spec.SScal .f32 0x3C23D70A#32)) (W main_v1)) := by
  after_results
  rfl

/-- The third stretch gathers every edge's weight from the table and adds it at the edge's destination. -/
private theorem st2 (W : Valuation τ sig (Elt F)) :
    StableHlo.after hostOps0_2 W main_v15
      = Host.scatterAdd (Cert.Spec.degScatter side)
          (broadcastInDim Cert.Spec.SNode ![] side.bNode (constant Cert.Spec.SScal .f32 0x00000000#32))
          (broadcastInDim Cert.Spec.SEdge1 ![0] side.bEdge1 (W main_arg6))
          (shapeCast Cert.Spec.SEdge
            (Host.gather (Cert.Spec.tabGather side) (W main_v2)
              (broadcastInDim Cert.Spec.SEdge1 ![0] side.bEdge1
                (Cert.Spec.wrap side 8#32
                  (subi (W main_arg7) (broadcastInDim Cert.Spec.SEdge ![] side.bEdge (constantI Cert.Spec.SScal 32 1#32))))))
            side.cEdge) := by
  after_results_simp
  rfl

/-- The third stretch also leaves the constant one. -/
private theorem st2_one (W : Valuation τ sig (Elt F)) :
    StableHlo.after hostOps0_2 W main_cst_3 = constant Cert.Spec.SScal .f32 0x3F800000#32 := by
  after_results

/-- The fourth stretch raises the degree to at least the constant it is given. -/
private theorem st3 (W : Valuation τ sig (Elt F)) :
    StableHlo.after hostOps0_3 W main_v16
      = maximumf (broadcastInDim Cert.Spec.SNode ![] side.bNode (id (W main_cst_3))) (W main_v15) := by
  after_results
  rfl

/-- The fifth stretch takes the power -1/2 and lays the result out as a column. -/
private theorem st4 (W : Valuation τ sig (Elt F)) :
    StableHlo.after hostOps0_4 W main_v19
      = broadcastInDim Cert.Spec.SNode1 ![0] side.bNode1
          (Host.powf (W main_v16) (broadcastInDim Cert.Spec.SNode ![] side.bNode (constant Cert.Spec.SScal .f32 0xBF000000#32))) := by
  after_results

/-- The stretch after the first product is one hop of the features it is given. -/
private theorem stHop1 (W : Valuation τ sig (Elt F)) :
    StableHlo.after hostOps1 W main_v34
      = Cert.Spec.hop side (W main_v19) (W main_arg5) (W main_arg6) (W main_arg0) := by
  after_results_simp
  rfl

/-- The stretch after the second product is one hop of what the first hop left. -/
private theorem stHop2 (W : Valuation τ sig (Elt F)) :
    StableHlo.after hostOps2 W main_v49
      = Cert.Spec.hop side (W main_v19) (W main_arg5) (W main_arg6) (W main_v34) := by
  after_results_simp
  rfl

/-- The last stretch lays the three products side by side. -/
private theorem stOut (W : Valuation τ sig (Elt F)) :
    StableHlo.after hostOps3 W main_v51
      = Cert.Spec.sideBySide side (W main_v20) (W main_v35) (W main_v50) := by
  after_results
  rfl

/-! ## What the stretches keep -/

private theorem V2_arg6 (c : Dev nD) : V2 m c main_arg6 = m ((c : Thread nD τ).loc main_arg6) :=
  (V2_of m c main_arg6 (by decide)).trans <| (V1_of m c main_arg6 (by decide)).trans rfl
private theorem V2_arg7 (c : Dev nD) : V2 m c main_arg7 = m ((c : Thread nD τ).loc main_arg7) :=
  (V2_of m c main_arg7 (by decide)).trans <| (V1_of m c main_arg7 (by decide)).trans rfl

/-- The features reach the first product as launched. -/
theorem V5_arg0 (c : Dev nD) : V5 m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans <| (V1_of m c main_arg0 (by decide)).trans rfl
/-- The first transform reaches the first product as launched. -/
theorem V5_arg2 (c : Dev nD) : V5 m c main_arg2 = m ((c : Thread nD τ).loc main_arg2) :=
  (V5_of m c main_arg2 (by decide)).trans <| (V4_of m c main_arg2 (by decide)).trans <| (V3_of m c main_arg2 (by decide)).trans <|
    (V2_of m c main_arg2 (by decide)).trans <| (V1_of m c main_arg2 (by decide)).trans rfl
private theorem V5_arg3 (c : Dev nD) : V5 m c main_arg3 = m ((c : Thread nD τ).loc main_arg3) :=
  (V5_of m c main_arg3 (by decide)).trans <| (V4_of m c main_arg3 (by decide)).trans <| (V3_of m c main_arg3 (by decide)).trans <|
    (V2_of m c main_arg3 (by decide)).trans <| (V1_of m c main_arg3 (by decide)).trans rfl
private theorem V5_arg4 (c : Dev nD) : V5 m c main_arg4 = m ((c : Thread nD τ).loc main_arg4) :=
  (V5_of m c main_arg4 (by decide)).trans <| (V4_of m c main_arg4 (by decide)).trans <| (V3_of m c main_arg4 (by decide)).trans <|
    (V2_of m c main_arg4 (by decide)).trans <| (V1_of m c main_arg4 (by decide)).trans rfl
private theorem V5_arg5 (c : Dev nD) : V5 m c main_arg5 = m ((c : Thread nD τ).loc main_arg5) :=
  (V5_of m c main_arg5 (by decide)).trans <| (V4_of m c main_arg5 (by decide)).trans <| (V3_of m c main_arg5 (by decide)).trans <|
    (V2_of m c main_arg5 (by decide)).trans <| (V1_of m c main_arg5 (by decide)).trans rfl
private theorem V5_arg6 (c : Dev nD) : V5 m c main_arg6 = m ((c : Thread nD τ).loc main_arg6) :=
  (V5_of m c main_arg6 (by decide)).trans <| (V4_of m c main_arg6 (by decide)).trans <| (V3_of m c main_arg6 (by decide)).trans <|
    V2_arg6 m c
/-- The second transform reaches the second product as launched. -/
theorem V7_arg3 (c : Dev nD) : V7 m outs c main_arg3 = m ((c : Thread nD τ).loc main_arg3) :=
  (V7_of m outs c main_arg3 (by decide)).trans <| (V6_of m outs c main_arg3 (by decide)).trans <| V5_arg3 m c
/-- The third transform reaches the third product as launched. -/
theorem V9_arg4 (c : Dev nD) : V9 m outs c main_arg4 = m ((c : Thread nD τ).loc main_arg4) :=
  (V9_of m outs c main_arg4 (by decide)).trans <| (V8_of m outs c main_arg4 (by decide)).trans <|
    (V7_of m outs c main_arg4 (by decide)).trans <| (V6_of m outs c main_arg4 (by decide)).trans <| V5_arg4 m c

/-! ## The stretches chained -/

/-- Before the first product the norm column stands in its buffer. -/
theorem norm_eq (c : Dev nD) :
    V5 m c main_v19
      = Cert.Spec.normCol side (m ((c : Thread nD τ).loc main_arg1)) (m ((c : Thread nD τ).loc main_arg6))
          (m ((c : Thread nD τ).loc main_arg7)) := by
  have h1 : V1 m c main_v1 = Cert.Spec.scaledTable side (m ((c : Thread nD τ).loc main_arg1)) := st0 (V0 m c)
  have h2 : V2 m c main_v2 = Cert.Spec.table side (m ((c : Thread nD τ).loc main_arg1)) := by
    refine (st1 (V1 m c)).trans ?_
    rw [h1]; rfl
  have h3 : V3 m c main_v15
      = Cert.Spec.degree side (m ((c : Thread nD τ).loc main_arg1)) (m ((c : Thread nD τ).loc main_arg6))
          (m ((c : Thread nD τ).loc main_arg7)) := by
    refine (st2 (V2 m c)).trans ?_
    rw [h2, V2_arg6, V2_arg7]; rfl
  have h3' : V3 m c main_cst_3 = constant Cert.Spec.SScal .f32 0x3F800000#32 := st2_one (V2 m c)
  have h4 : V4 m c main_v16
      = maximumf (broadcastInDim Cert.Spec.SNode ![] side.bNode (id (constant Cert.Spec.SScal .f32 0x3F800000#32)))
          (Cert.Spec.degree side (m ((c : Thread nD τ).loc main_arg1)) (m ((c : Thread nD τ).loc main_arg6))
            (m ((c : Thread nD τ).loc main_arg7))) := by
    refine (st3 (V3 m c)).trans ?_
    rw [h3, h3']
  refine (st4 (V4 m c)).trans ?_
  rw [h4]; rfl

/-- After the first product the first hop of the features stands in its buffer. -/
theorem hop1_eq (c : Dev nD) :
    V7 m outs c main_v34
      = Cert.Spec.hop side (V5 m c main_v19) (m ((c : Thread nD τ).loc main_arg5)) (m ((c : Thread nD τ).loc main_arg6))
          (m ((c : Thread nD τ).loc main_arg0)) := by
  refine (stHop1 (V6 m outs c)).trans ?_
  rw [V6_of m outs c main_v19 (by decide), V6_of m outs c main_arg5 (by decide), V6_of m outs c main_arg6 (by decide),
    V6_of m outs c main_arg0 (by decide), V5_arg5, V5_arg6, V5_arg0]

/-- After the second product the second hop stands in its buffer. -/
theorem hop2_eq (c : Dev nD) :
    V9 m outs c main_v49
      = Cert.Spec.hop side (V5 m c main_v19) (m ((c : Thread nD τ).loc main_arg5)) (m ((c : Thread nD τ).loc main_arg6))
          (V7 m outs c main_v34) := by
  refine (stHop2 (V8 m outs c)).trans ?_
  rw [V8_of m outs c main_v19 (by decide), V8_of m outs c main_arg5 (by decide), V8_of m outs c main_arg6 (by decide),
    V8_of m outs c main_v34 (by decide),
    V7_of m outs c main_v19 (by decide), V7_of m outs c main_arg5 (by decide), V7_of m outs c main_arg6 (by decide),
    V6_of m outs c main_v19 (by decide), V6_of m outs c main_arg5 (by decide), V6_of m outs c main_arg6 (by decide),
    V5_arg5, V5_arg6]

/-- At the end the three products stand side by side in the result. -/
theorem out_eq (c : Dev nD) :
    V11 m outs c main_v51
      = Cert.Spec.sideBySide side (outs 6 main_v20 c) (outs 8 main_v35 c) (outs 10 main_v50 c) := by
  have h50 : V10 m outs c main_v50 = outs 10 main_v50 c := Function.update_self ..
  have h35 : V10 m outs c main_v35 = outs 8 main_v35 c :=
    (V10_of m outs c main_v35 (by decide)).trans <| (V9_of m outs c main_v35 (by decide)).trans <| Function.update_self ..
  have h20 : V10 m outs c main_v20 = outs 6 main_v20 c :=
    (V10_of m outs c main_v20 (by decide)).trans <| (V9_of m outs c main_v20 (by decide)).trans <|
      (V8_of m outs c main_v20 (by decide)).trans <| (V7_of m outs c main_v20 (by decide)).trans <| Function.update_self ..
  refine (stOut (V10 m outs c)).trans ?_
  rw [h20, h35, h50]

end Cert.KernelIdeal.Hand

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KI.Value0.lean ====
/-
  Region 0's product array, at the extended reals. The region runs over ten row blocks; at block t it multiplies
  rows 10000 t … 10000 t + 9999 of the node array it reads by the whole 64 x 64 matrix into a zero accumulator and
  writes the product to the same rows of its output. Entry (r, q) of the output after the ten blocks is therefore
  ∑ k, nodes (r, k) * matrix (k, q), which is entry (r, q) of the host's rows-by-columns product of the two whole
  arrays: the output array is that product.
-/
import proofs.«150190_j41601053229994_1_alg».proof.Proof.KI.Region0
import proofs.«150190_j41601053229994_1_alg».proof.Proof.Spec
import proofs.«150190_j41601053229994_1_alg».proof.Proof.LibPlainDot
import Idealize.ShloMosaic.Lib.Pipeline.Value
import Idealize.ShloMosaic.Lib.ValueIdx

set_option maxRecDepth 16384

noncomputable section

namespace Cert.KernelIdeal.RegVal0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The host's contraction of 100000 x 64 by 64 x 64 is the plain rows-by-columns one. -/
theorem rowsByCols_eq (side : Cert.Spec.Side) : Cert.Spec.rowsByCols side = DotDims.plain 100000 64 64 := rfl

/-- So is the block's contraction of 10000 x 64 by 64 x 64. -/
theorem blockDot_eq : dot_S10000x64_S64x64_S10000x64_1_0_0_1_n_n = DotDims.plain 10000 64 64 := rfl

/-- One block's product at (p, q): narrowing the float format changes nothing at the extended reals, a cast to the
    same shape changes nothing, and the product into the zero accumulator is the sum over the inner index. -/
theorem payload_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  simp only [shapeCast_self, blockDot_eq]
  exact Cert.PlainDot.matmul_zero_apply none _ _ (ix2 p q)

/-- The host's product of the whole arrays at (r, q): the same sum. -/
theorem transform_apply (side : Cert.Spec.Side) (h : FVec Ideal Cert.Spec.SNode64 .f32) (w : FVec Ideal Cert.Spec.SW .f32)
    (r : Fin 100000) (q : Fin 64) :
    Cert.Spec.transform side h w (ix2 r q) = ∑ k : Fin 64, h (ix2 r k) * w (ix2 k q) := by
  unfold Cert.Spec.transform
  rw [rowsByCols_eq]
  exact Cert.PlainDot.dotGeneral_apply none .single h w (ix2 r q)

/-- A block `x0` that holds row r of `A` as its row p, and a block `x1` that holds column q of `B` as its column q,
    multiply at (p, q) to the whole product's entry (r, q). -/
theorem block_product_apply (side : Cert.Spec.Side) (A : FVec Ideal Cert.Spec.SNode64 .f32) (B : FVec Ideal Cert.Spec.SW .f32)
    (x0 : Vec Ideal S10000x64 .f32) (x1 : Vec Ideal S64x64 .f32) (p : Fin 10000) (q : Fin 64) (r : Fin 100000)
    (h0 : ∀ k : Fin 64, x0 (ix2 p k) = A (ix2 r k)) (h1 : ∀ k : Fin 64, x1 (ix2 k q) = B (ix2 k q)) :
    k0_pay1 x0 x1 (ix2 p q) = Cert.Spec.transform side A B (ix2 r q) := by
  rw [payload_apply, transform_apply]
  exact Finset.sum_congr rfl fun k _ => by rw [h0 k, h1 k]

/-- The body's rectangles start at the origin. -/
theorem zero_offsets : (![0, 0] : Fin 2 → Nat) = fun _ => 0 := funext fun a => by fin_cases a <;> rfl

/-- The block indices at grid point t, decided over the ten points: the rows' and the product's block is (t, 0), the
    matrix's is (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product: entry (p, q) of the block is entry
    (10000 t + p, q) of the array, on the rows read and on the product written alike. -/
theorem flushed_eq (side : Cert.Spec.Side) (V : (c : Dev nD) → (b : Ref sig .tc) → Buf (Elt Ideal) ((c : Thread nD τ).loc b))
    (c : Dev nD) (t : Fin cfg0.N) :
    (Reg0.dat (F := Ideal) V c).flushed 2 t
      = ((cfg0.win 2).blk t).view.read (Elt Ideal) (Cert.Spec.transform (F := Ideal) side (V c main_arg0) (V c main_arg2)) := by
  show (cfg0.win 2).cut (cfg0.grid.coords t) ((Reg0.dat (F := Ideal) V c).after 2 t) = _
  rw [Reg0.after_prod]
  unfold Reg0.prodBlock
  rw [View.canon_unit_zero zero_offsets]
  simp only [View.ld_unit_zero (S := S10000x64) zero_offsets, View.ld_unit_zero (S := S64x64) zero_offsets]
  obtain ⟨e00, e01, e10, e11, e20, e21⟩ := index_facts t
  funext j
  obtain ⟨p, q, rfl⟩ : ∃ (p : Fin 10000) (q : Fin 64), j = ix2 p q := ⟨j 0, j 1, eq_ix2 j⟩
  have hp : p.val < 10000 := p.isLt
  have ht : t.val < 10 := t.isLt
  refine (block_product_apply side (V c main_arg0) (V c main_arg2) _ _ p q ⟨t.val * 10000 + p.val, by omega⟩ ?_ ?_).trans ?_
  · intro k
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; rw [e00]; omega
    | ⟨1, _⟩ => show win0_0.index t (1 : Fin 2) * 64 + 1 * k.val = k.val; rw [e01]; omega
  · intro k
    show V c main_arg2 (((cfg0.win 1).blk t).view.emb (ix2 k q)) = _
    refine congrArg (V c main_arg2) ?_
    funext a; apply Fin.ext
    match a with
    | ⟨0, _⟩ => show win0_1.index t (0 : Fin 2) * 64 + 1 * k.val = k.val; rw [e10]; omega
    | ⟨1, _⟩ => show win0_1.index t (1 : Fin 2) * 64 + 1 * q.val = q.val; rw [e11]; omega
  · show _ = Cert.Spec.transform (F := Ideal) side (V c main_arg0) (V c main_arg2) (((cfg0.win 2).blk t).view.emb (ix2 p q))
    refine congrArg (Cert.Spec.transform (F := Ideal) side (V c main_arg0) (V c main_arg2)) ?_
    funext a; apply Fin.ext
    match a with
    | ⟨0, _⟩ => show t.val * 10000 + p.val = win0_2.index t (0 : Fin 2) * 10000 + 1 * p.val; rw [e20]; omega
    | ⟨1, _⟩ => show q.val = win0_2.index t (1 : Fin 2) * 64 + 1 * q.val; rw [e21]; omega

/-- An index of the product array is in grid point t's block iff each coordinate is in the block's range on its axis. -/
theorem mem_block (t : Fin cfg0.N) (i : S100000x64.Idx) :
    i ∈ ((cfg0.win 2).blk t).view.set
      ↔ ∀ a : Fin 2, win0_2.index t a * S10000x64.size a ≤ (i a).val ∧ (i a).val < win0_2.index t a * S10000x64.size a + S10000x64.size a := by
  show i ∈ ((View.whole main_v20).slice (win0_2.rect t)).set ↔ _
  rw [View.set_slice_whole, Rect.mem_set_unit]
  exact Iff.rfl

/-- The ten blocks cover the product array: row r lies in block r / 10000, and every block is written back. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by show (i 0).val / 10000 < 10; omega⟩
  have htv : t.val = (i 0).val / 10000 := rfl
  obtain ⟨-, -, -, -, e20, e21⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; rw [e20, htv]; omega
  | ⟨1, _⟩ => show win0_2.index t (1 : Fin 2) * 64 ≤ (i 1).val ∧ (i 1).val < win0_2.index t (1 : Fin 2) * 64 + 64; rw [e21]; omega

/-- The product array after the ten grid points is the host's product of the two arrays the region reads. -/
theorem prod_eq (side : Cert.Spec.Side) (V : (c : Dev nD) → (b : Ref sig .tc) → Buf (Elt Ideal) ((c : Thread nD τ).loc b)) (c : Dev nD) :
    (Reg0.dat (F := Ideal) V c).arrAt 2 cfg0.N = Cert.Spec.transform (F := Ideal) side (V c main_arg0) (V c main_arg2) :=
  (Reg0.dat (F := Ideal) V c).arrAt_eq_of_cover 2 (Cert.Spec.transform (F := Ideal) side (V c main_arg0) (V c main_arg2))
    (fun t _ => flushed_eq side V c t) covered

end Cert.KernelIdeal.RegVal0

end
-- ==== Proof.KI.Value1.lean ====
/-
  Region 1's product array, at the extended reals. The region runs over ten row blocks; at block t it multiplies
  rows 10000 t … 10000 t + 9999 of the node array it reads by the whole 64 x 64 matrix into a zero accumulator and
  writes the product to the same rows of its output. Entry (r, q) of the output after the ten blocks is therefore
  ∑ k, nodes (r, k) * matrix (k, q), which is entry (r, q) of the host's rows-by-columns product of the two whole
  arrays: the output array is that product.
-/
import proofs.«150190_j41601053229994_1_alg».proof.Proof.KI.Region1
import proofs.«150190_j41601053229994_1_alg».proof.Proof.Spec
import proofs.«150190_j41601053229994_1_alg».proof.Proof.LibPlainDot
import Idealize.ShloMosaic.Lib.Pipeline.Value
import Idealize.ShloMosaic.Lib.ValueIdx

set_option maxRecDepth 16384

noncomputable section

namespace Cert.KernelIdeal.RegVal1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The host's contraction of 100000 x 64 by 64 x 64 is the plain rows-by-columns one. -/
theorem rowsByCols_eq (side : Cert.Spec.Side) : Cert.Spec.rowsByCols side = DotDims.plain 100000 64 64 := rfl

/-- So is the block's contraction of 10000 x 64 by 64 x 64. -/
theorem blockDot_eq : dot_S10000x64_S64x64_S10000x64_1_0_0_1_n_n = DotDims.plain 10000 64 64 := rfl

/-- One block's product at (p, q): narrowing the float format changes nothing at the extended reals, a cast to the
    same shape changes nothing, and the product into the zero accumulator is the sum over the inner index. -/
theorem payload_apply (x0 : Vec Ideal S10000x64 .f32) (x1 : Vec Ideal S64x64 .f32) (p : Fin 10000) (q : Fin 64) :
    k1_pay1 x0 x1 (ix2 p q) = ∑ k : Fin 64, x0 (ix2 p k) * x1 (ix2 k q) := by
  unfold k1_pay1
  simp only [shapeCast_self, blockDot_eq]
  exact Cert.PlainDot.matmul_zero_apply none _ _ (ix2 p q)

/-- The host's product of the whole arrays at (r, q): the same sum. -/
theorem transform_apply (side : Cert.Spec.Side) (h : FVec Ideal Cert.Spec.SNode64 .f32) (w : FVec Ideal Cert.Spec.SW .f32)
    (r : Fin 100000) (q : Fin 64) :
    Cert.Spec.transform side h w (ix2 r q) = ∑ k : Fin 64, h (ix2 r k) * w (ix2 k q) := by
  unfold Cert.Spec.transform
  rw [rowsByCols_eq]
  exact Cert.PlainDot.dotGeneral_apply none .single h w (ix2 r q)

/-- A block `x0` that holds row r of `A` as its row p, and a block `x1` that holds column q of `B` as its column q,
    multiply at (p, q) to the whole product's entry (r, q). -/
theorem block_product_apply (side : Cert.Spec.Side) (A : FVec Ideal Cert.Spec.SNode64 .f32) (B : FVec Ideal Cert.Spec.SW .f32)
    (x0 : Vec Ideal S10000x64 .f32) (x1 : Vec Ideal S64x64 .f32) (p : Fin 10000) (q : Fin 64) (r : Fin 100000)
    (h0 : ∀ k : Fin 64, x0 (ix2 p k) = A (ix2 r k)) (h1 : ∀ k : Fin 64, x1 (ix2 k q) = B (ix2 k q)) :
    k1_pay1 x0 x1 (ix2 p q) = Cert.Spec.transform side A B (ix2 r q) := by
  rw [payload_apply, transform_apply]
  exact Finset.sum_congr rfl fun k _ => by rw [h0 k, h1 k]

/-- The body's rectangles start at the origin. -/
theorem zero_offsets : (![0, 0] : Fin 2 → Nat) = fun _ => 0 := funext fun a => by fin_cases a <;> rfl

/-- The block indices at grid point t, decided over the ten points: the rows' and the product's block is (t, 0), the
    matrix's is (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product: entry (p, q) of the block is entry
    (10000 t + p, q) of the array, on the rows read and on the product written alike. -/
theorem flushed_eq (side : Cert.Spec.Side) (V : (c : Dev nD) → (b : Ref sig .tc) → Buf (Elt Ideal) ((c : Thread nD τ).loc b))
    (c : Dev nD) (t : Fin cfg1.N) :
    (Reg1.dat (F := Ideal) V c).flushed 2 t
      = ((cfg1.win 2).blk t).view.read (Elt Ideal) (Cert.Spec.transform (F := Ideal) side (V c main_v34) (V c main_arg3)) := by
  show (cfg1.win 2).cut (cfg1.grid.coords t) ((Reg1.dat (F := Ideal) V c).after 2 t) = _
  rw [Reg1.after_prod]
  unfold Reg1.prodBlock
  rw [View.canon_unit_zero zero_offsets]
  simp only [View.ld_unit_zero (S := S10000x64) zero_offsets, View.ld_unit_zero (S := S64x64) zero_offsets]
  obtain ⟨e00, e01, e10, e11, e20, e21⟩ := index_facts t
  funext j
  obtain ⟨p, q, rfl⟩ : ∃ (p : Fin 10000) (q : Fin 64), j = ix2 p q := ⟨j 0, j 1, eq_ix2 j⟩
  have hp : p.val < 10000 := p.isLt
  have ht : t.val < 10 := t.isLt
  refine (block_product_apply side (V c main_v34) (V c main_arg3) _ _ p q ⟨t.val * 10000 + p.val, by omega⟩ ?_ ?_).trans ?_
  · intro k
    show V c main_v34 (((cfg1.win 0).blk t).view.emb (ix2 p k)) = _
    refine congrArg (V c main_v34) ?_
    funext a; apply Fin.ext
    match a with
    | ⟨0, _⟩ => show win1_0.index t (0 : Fin 2) * 10000 + 1 * p.val = t.val * 10000 + p.val; rw [e00]; omega
    | ⟨1, _⟩ => show win1_0.index t (1 : Fin 2) * 64 + 1 * k.val = k.val; rw [e01]; omega
  · intro k
    show V c main_arg3 (((cfg1.win 1).blk t).view.emb (ix2 k q)) = _
    refine congrArg (V c main_arg3) ?_
    funext a; apply Fin.ext
    match a with
    | ⟨0, _⟩ => show win1_1.index t (0 : Fin 2) * 64 + 1 * k.val = k.val; rw [e10]; omega
    | ⟨1, _⟩ => show win1_1.index t (1 : Fin 2) * 64 + 1 * q.val = q.val; rw [e11]; omega
  · show _ = Cert.Spec.transform (F := Ideal) side (V c main_v34) (V c main_arg3) (((cfg1.win 2).blk t).view.emb (ix2 p q))
    refine congrArg (Cert.Spec.transform (F := Ideal) side (V c main_v34) (V c main_arg3)) ?_
    funext a; apply Fin.ext
    match a with
    | ⟨0, _⟩ => show t.val * 10000 + p.val = win1_2.index t (0 : Fin 2) * 10000 + 1 * p.val; rw [e20]; omega
    | ⟨1, _⟩ => show q.val = win1_2.index t (1 : Fin 2) * 64 + 1 * q.val; rw [e21]; omega

/-- An index of the product array is in grid point t's block iff each coordinate is in the block's range on its axis. -/
theorem mem_block (t : Fin cfg1.N) (i : S100000x64.Idx) :
    i ∈ ((cfg1.win 2).blk t).view.set
      ↔ ∀ a : Fin 2, win1_2.index t a * S10000x64.size a ≤ (i a).val ∧ (i a).val < win1_2.index t a * S10000x64.size a + S10000x64.size a := by
  show i ∈ ((View.whole main_v35).slice (win1_2.rect t)).set ↔ _
  rw [View.set_slice_whole, Rect.mem_set_unit]
  exact Iff.rfl

/-- The ten blocks cover the product array: row r lies in block r / 10000, and every block is written back. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by show (i 0).val / 10000 < 10; omega⟩
  have htv : t.val = (i 0).val / 10000 := rfl
  obtain ⟨-, -, -, -, e20, e21⟩ := index_facts t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; rw [e20, htv]; omega
  | ⟨1, _⟩ => show win1_2.index t (1 : Fin 2) * 64 ≤ (i 1).val ∧ (i 1).val < win1_2.index t (1 : Fin 2) * 64 + 64; rw [e21]; omega

/-- The product array after the ten grid points is the host's product of the two arrays the region reads. -/
theorem prod_eq (side : Cert.Spec.Side) (V : (c : Dev nD) → (b : Ref sig .tc) → Buf (Elt Ideal) ((c : Thread nD τ).loc b)) (c : Dev nD) :
    (Reg1.dat (F := Ideal) V c).arrAt 2 cfg1.N = Cert.Spec.transform (F := Ideal) side (V c main_v34) (V c main_arg3) :=
  (Reg1.dat (F := Ideal) V c).arrAt_eq_of_cover 2 (Cert.Spec.transform (F := Ideal) side (V c main_v34) (V c main_arg3))
    (fun t _ => flushed_eq side V c t) covered

end Cert.KernelIdeal.RegVal1

end
-- ==== Proof.KI.Value2.lean ====
/-
  Region 2's product array, at the extended reals. The region runs over ten row blocks; at block t it multiplies
  rows 10000 t … 10000 t + 9999 of the node array it reads by the whole 64 x 64 matrix into a zero accumulator and
  writes the product to the same rows of its output. Entry (r, q) of the output after the ten blocks is therefore
  ∑ k, nodes (r, k) * matrix (k, q), which is entry (r, q) of the host's rows-by-columns product of the two whole
  arrays: the output array is that product.
-/
import proofs.«150190_j41601053229994_1_alg».proof.Proof.KI.Region2
import proofs.«150190_j41601053229994_1_alg».proof.Proof.Spec
import proofs.«150190_j41601053229994_1_alg».proof.Proof.LibPlainDot
import Idealize.ShloMosaic.Lib.Pipeline.Value
import Idealize.ShloMosaic.Lib.ValueIdx

set_option maxRecDepth 16384

noncomputable section

namespace Cert.KernelIdeal.RegVal2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The host's contraction of 100000 x 64 by 64 x 64 is the plain rows-by-columns one. -/
theorem rowsByCols_eq (side : Cert.Spec.Side) : Cert.Spec.rowsByCols side = DotDims.plain 100000 64 64 := rfl

/-- So is the block's contraction of 10000 x 64 by 64 x 64. -/
theorem blockDot_eq : dot_S10000x64_S64x64_S10000x64_1_0_0_1_n_n = DotDims.plain 10000 64 64 := rfl

/-- One block's product at (p, q): narrowing the float format changes nothing at the extended reals, a cast to the
    same shape changes nothing, and the product into the zero accumulator is the sum over the inner index. -/
theorem payload_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  simp only [shapeCast_self, blockDot_eq]
  exact Cert.PlainDot.matmul_zero_apply none _ _ (ix2 p q)

/-- The host's product of the whole arrays at (r, q): the same sum. -/
theorem transform_apply (side : Cert.Spec.Side) (h : FVec Ideal Cert.Spec.SNode64 .f32) (w : FVec Ideal Cert.Spec.SW .f32)
    (r : Fin 100000) (q : Fin 64) :
    Cert.Spec.transform side h w (ix2 r q) = ∑ k : Fin 64, h (ix2 r k) * w (ix2 k q) := by
  unfold Cert.Spec.transform
  rw [rowsByCols_eq]
  exact Cert.PlainDot.dotGeneral_apply none .single h w (ix2 r q)

/-- A block `x0` that holds row r of `A` as its row p, and a block `x1` that holds column q of `B` as its column q,
    multiply at (p, q) to the whole product's entry (r, q). -/
theorem block_product_apply (side : Cert.Spec.Side) (A : FVec Ideal Cert.Spec.SNode64 .f32) (B : FVec Ideal Cert.Spec.SW .f32)
    (x0 : Vec Ideal S10000x64 .f32) (x1 : Vec Ideal S64x64 .f32) (p : Fin 10000) (q : Fin 64) (r : Fin 100000)
    (h0 : ∀ k : Fin 64, x0 (ix2 p k) = A (ix2 r k)) (h1 : ∀ k : Fin 64, x1 (ix2 k q) = B (ix2 k q)) :
    k2_pay1 x0 x1 (ix2 p q) = Cert.Spec.transform side A B (ix2 r q) := by
  rw [payload_apply, transform_apply]
  exact Finset.sum_congr rfl fun k _ => by rw [h0 k, h1 k]

/-- The body's rectangles start at the origin. -/
theorem zero_offsets : (![0, 0] : Fin 2 → Nat) = fun _ => 0 := funext fun a => by fin_cases a <;> rfl

/-- The block indices at grid point t, decided over the ten points: the rows' and the product's block is (t, 0), the
    matrix's is (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the whole product: entry (p, q) of the block is entry
    (10000 t + p, q) of the array, on the rows read and on the product written alike. -/
theorem flushed_eq (side : Cert.Spec.Side) (V : (c : Dev nD) → (b : Ref sig .tc) → Buf (Elt Ideal) ((c : Thread nD τ).loc b))
    (c : Dev nD) (t : Fin cfg2.N) :
    (Reg2.dat (F := Ideal) V c).flushed 2 t
      = ((cfg2.win 2).blk t).view.read (Elt Ideal) (Cert.Spec.transform (F := Ideal) side (V c main_v49) (V c main_arg4)) := by
  show (cfg2.win 2).cut (cfg2.grid.coords t) ((Reg2.dat (F := Ideal) V c).after 2 t) = _
  rw [Reg2.after_prod]
  unfold Reg2.prodBlock
  rw [View.canon_unit_zero zero_offsets]
  simp only [View.ld_unit_zero (S := S10000x64) zero_offsets, View.ld_unit_zero (S := S64x64) zero_offsets]
  obtain ⟨e00, e01, e10, e11, e20, e21⟩ := index_facts t
  funext j
  obtain ⟨p, q, rfl⟩ : ∃ (p : Fin 10000) (q : Fin 64), j = ix2 p q := ⟨j 0, j 1, eq_ix2 j⟩
  have hp : p.val < 10000 := p.isLt
  have ht : t.val < 10 := t.isLt
  refine (block_product_apply side (V c main_v49) (V c main_arg4) _ _ p q ⟨t.val * 10000 + p.val, by omega⟩ ?_ ?_).trans ?_
  · intro k
    show V c main_v49 (((cfg2.win 0).blk t).view.emb (ix2 p k)) = _
    refine congrArg (V c main_v49) ?_
    funext a; apply Fin.ext
    match a with
    | ⟨0, _⟩ => show win2_0.index t (0 : Fin 2) * 10000 + 1 * p.val = t.val * 10000 + p.val; rw [e00]; omega
    | ⟨1, _⟩ => show win2_0.index t (1 : Fin 2) * 64 + 1 * k.val = k.val; rw [e01]; omega
  · intro k
    show V c main_arg4 (((cfg2.win 1).blk t).view.emb (ix2 k q)) = _
    refine congrArg (V c main_arg4) ?_
    funext a; apply Fin.ext
    match a with
    | ⟨0, _⟩ => show win2_1.index t (0 : Fin 2) * 64 + 1 * k.val = k.val; rw [e10]; omega
    | ⟨1, _⟩ => show win2_1.index t (1 : Fin 2) * 64 + 1 * q.val = q.val; rw [e11]; omega
  · show _ = Cert.Spec.transform (F := Ideal) side (V c main_v49) (V c main_arg4) (((cfg2.win 2).blk t).view.emb (ix2 p q))
    refine congrArg (Cert.Spec.transform (F := Ideal) side (V c main_v49) (V c main_arg4)) ?_
    funext a; apply Fin.ext
    match a with
    | ⟨0, _⟩ => show t.val * 10000 + p.val = win2_2.index t (0 : Fin 2) * 10000 + 1 * p.val; rw [e20]; omega
    | ⟨1, _⟩ => show q.val = win2_2.index t (1 : Fin 2) * 64 + 1 * q.val; rw [e21]; omega

/-- An index of the product array is in grid point t's block iff each coordinate is in the block's range on its axis. -/
theorem mem_block (t : Fin cfg2.N) (i : S100000x64.Idx) :
    i ∈ ((cfg2.win 2).blk t).view.set
      ↔ ∀ a : Fin 2, win2_2.index t a * S10000x64.size a ≤ (i a).val ∧ (i a).val < win2_2.index t a * S10000x64.size a + S10000x64.size a := by
  show i ∈ ((View.whole main_v50).slice (win2_2.rect t)).set ↔ _
  rw [View.set_slice_whole, Rect.mem_set_unit]
  exact Iff.rfl

/-- The ten blocks cover the product array: row r lies in block r / 10000, and every block is written back. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 10000, by show (i 0).val / 10000 < 10; omega⟩
  have htv : t.val = (i 0).val / 10000 := rfl
  obtain ⟨-, -, -, -, e20, e21⟩ := index_facts t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; rw [e20, htv]; omega
  | ⟨1, _⟩ => show win2_2.index t (1 : Fin 2) * 64 ≤ (i 1).val ∧ (i 1).val < win2_2.index t (1 : Fin 2) * 64 + 64; rw [e21]; omega

/-- The product array after the ten grid points is the host's product of the two arrays the region reads. -/
theorem prod_eq (side : Cert.Spec.Side) (V : (c : Dev nD) → (b : Ref sig .tc) → Buf (Elt Ideal) ((c : Thread nD τ).loc b)) (c : Dev nD) :
    (Reg2.dat (F := Ideal) V c).arrAt 2 cfg2.N = Cert.Spec.transform (F := Ideal) side (V c main_v49) (V c main_arg4) :=
  (Reg2.dat (F := Ideal) V c).arrAt_eq_of_cover 2 (Cert.Spec.transform (F := Ideal) side (V c main_v49) (V c main_arg4))
    (fun t _ => flushed_eq side V c t) covered

end Cert.KernelIdeal.RegVal2

end
-- ==== Proof.KI.Final.lean ====
/-
  The kernel program's result over the extended reals. Each region's product array is the host product of the two
  arrays the region reads; the host operations between the regions are the norm column and the two hops; the last
  host operation lays the three products side by side. Read back through the run's contents this is the function
  `Cert.Spec.result` of the eight argument arrays, and the arguments end as launched.
-/
import proofs.«150190_j41601053229994_1_alg».proof.Proof.KI.RunAll
import proofs.«150190_j41601053229994_1_alg».proof.Proof.KIStretch
import proofs.«150190_j41601053229994_1_alg».proof.Proof.KI.Value0
import proofs.«150190_j41601053229994_1_alg».proof.Proof.KI.Value1
import proofs.«150190_j41601053229994_1_alg».proof.Proof.KI.Value2

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- Region 0's product: the given features times the first transform. -/
theorem prod0_eq (c : Dev nD) :
    Chain.prod0 m c = Cert.Spec.transform (F := Ideal) side (m ((c.tc : Thread nD τ).loc main_arg0)) (m ((c.tc : Thread nD τ).loc main_arg2)) := by
  unfold Chain.prod0
  rw [RegVal0.prod_eq side (Chain.E0 m) c]
  show Cert.Spec.transform (F := Ideal) side (Chain.U5 m c main_arg0) (Chain.U5 m c main_arg2) = _
  rw [← Chain.V5_eq, V5_arg0, V5_arg2]

/-- Region 1's product: the features after one hop times the second transform. -/
theorem prod1_eq (c : Dev nD) :
    Chain.prod1 m c = Cert.Spec.transform (F := Ideal) side
      (Cert.Spec.hop side (Cert.Spec.normCol side (m ((c.tc : Thread nD τ).loc main_arg1)) (m ((c.tc : Thread nD τ).loc main_arg6)) (m ((c.tc : Thread nD τ).loc main_arg7)))
        (m ((c.tc : Thread nD τ).loc main_arg5)) (m ((c.tc : Thread nD τ).loc main_arg6)) (m ((c.tc : Thread nD τ).loc main_arg0)))
      (m ((c.tc : Thread nD τ).loc main_arg3)) := by
  unfold Chain.prod1
  rw [RegVal1.prod_eq side (Chain.E1 m) c]
  show Cert.Spec.transform (F := Ideal) side (Chain.U7 m c main_v34) (Chain.U7 m c main_arg3) = _
  rw [← Chain.V7_eq, hop1_eq, V7_arg3, norm_eq]

/-- Region 2's product: the features after two hops times the third transform. -/
theorem prod2_eq (c : Dev nD) :
    Chain.prod2 m c = Cert.Spec.transform (F := Ideal) side
      (Cert.Spec.hop side (Cert.Spec.normCol side (m ((c.tc : Thread nD τ).loc main_arg1)) (m ((c.tc : Thread nD τ).loc main_arg6)) (m ((c.tc : Thread nD τ).loc main_arg7)))
        (m ((c.tc : Thread nD τ).loc main_arg5)) (m ((c.tc : Thread nD τ).loc main_arg6))
        (Cert.Spec.hop side (Cert.Spec.normCol side (m ((c.tc : Thread nD τ).loc main_arg1)) (m ((c.tc : Thread nD τ).loc main_arg6)) (m ((c.tc : Thread nD τ).loc main_arg7)))
          (m ((c.tc : Thread nD τ).loc main_arg5)) (m ((c.tc : Thread nD τ).loc main_arg6)) (m ((c.tc : Thread nD τ).loc main_arg0))))
      (m ((c.tc : Thread nD τ).loc main_arg4)) := by
  unfold Chain.prod2
  rw [RegVal2.prod_eq side (Chain.E2 m) c]
  show Cert.Spec.transform (F := Ideal) side (Chain.U9 m c main_v49) (Chain.U9 m c main_arg4) = _
  rw [← Chain.V9_eq, hop2_eq, V9_arg4, hop1_eq, norm_eq]

/-- The result array at the end of the run. -/
theorem value_eq (c : Dev nD) :
    V11 m (Chain.outs m) c main_v51 = Cert.Spec.result (F := Ideal) side (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [out_eq, Chain.outs_prod0, Chain.outs_prod1, Chain.outs_prod2, prod0_eq, prod1_eq, prod2_eq]
  rfl

/-- A core's reference is among the unscoped buffers the run's last state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution ends with the result array at `Cert.Spec.result` of the arguments and the arguments
    as launched. -/
theorem run (ρ : Dev nD → PrngReg) :
    θ_run defs (onTc (τ := τ) (main (F := Ideal))) ⟨m, fun _ => 0, ρ⟩ fun r => ∀ c : Dev nD,
      r.2.mem ((c.tc : Thread nD τ).loc main_v51) = Cert.Spec.result (F := Ideal) side (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c _ (mem_uc main_v51 (by decide))).trans (value_eq m c),
      (h c _ (mem_uc main_arg0 (by decide))).trans (V11_main_arg0 m (Chain.outs m) c),
      (h c _ (mem_uc main_arg1 (by decide))).trans (V11_main_arg1 m (Chain.outs m) c),
      (h c _ (mem_uc main_arg2 (by decide))).trans (V11_main_arg2 m (Chain.outs m) c),
      (h c _ (mem_uc main_arg3 (by decide))).trans (V11_main_arg3 m (Chain.outs m) c),
      (h c _ (mem_uc main_arg4 (by decide))).trans (V11_main_arg4 m (Chain.outs m) c),
      (h c _ (mem_uc main_arg5 (by decide))).trans (V11_main_arg5 m (Chain.outs m) c),
      (h c _ (mem_uc main_arg6 (by decide))).trans (V11_main_arg6 m (Chain.outs m) c),
      (h c _ (mem_uc main_arg7 (by decide))).trans (V11_main_arg7 m (Chain.outs m) c)⟩)
    (run_all m ρ)

end Cert.KernelIdeal.Hand

end
-- ==== Proof.RefRun.lean ====
/-
  The reference program's host function as one straight line of its operations, the three module-local calls
  (the leaky rectifier, its select, the clip) written out at their call sites over the buffers of those calls, and
  the run of that line: every weakly fair execution ends with each buffer at the line's fold over the launch contents.
-/
import proofs.«150190_j41601053229994_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The host function's 73 operations, in order. The rectifier is seven (zero and its broadcast, the comparison, the
    slope and its broadcast, the product, the select), the clip three (the bound converted to its own type, its
    broadcast, the maximum). -/
abbrev ops : List (HloOp τ sig (Elt F)) :=
  [ StableHlo.nullary main_cst (constant S_ .f32 0x41200000#32),
    StableHlo.unary main_cst main_v0 (broadcastInDim S8x1 ![] bcast_S_S8x1 : (⟨S_, .f32⟩ : BufTy).Contents (Elt F) → (⟨S8x1, .f32⟩ : BufTy).Contents (Elt F)),
    StableHlo.binary main_arg1 main_v0 main_v1 (mulf : (⟨S8x1, .f32⟩ : BufTy).Contents (Elt F) → (⟨S8x1, .f32⟩ : BufTy).Contents (Elt F) → (⟨S8x1, .f32⟩ : BufTy).Contents (Elt F)),
    StableHlo.TRef.nullary main_call0.cst (constant S_ .f32 0x00000000#32),
    StableHlo.TRef.unary main_call0.cst main_call0.v0 (broadcastInDim S8x1 ![] bcast_S_S8x1),
    StableHlo.TRef.binary (.of main_v1) main_call0.v0 main_call0.v1 (cmpf .oge),
    StableHlo.TRef.nullary main_call0.cst_0 (constant S_ .f32 0x3C23D70A#32),
    StableHlo.TRef.unary main_call0.cst_0 main_call0.v2 (broadcastInDim S8x1 ![] bcast_S_S8x1),
    StableHlo.TRef.binary main_call0.v2 (.of main_v1) main_call0.v3 mulf,
    StableHlo.TRef.ternary main_call0.v1 (.of main_v1) main_call0.v3 main_call0.call0.v0 select,
    StableHlo.nullary main_c (constantI S_ 32 1#32),
    StableHlo.unary main_c main_v3 (broadcastInDim S1000000 ![] bcast_S_S1000000 : (⟨S_, .i32⟩ : BufTy).Contents (Elt F) → (⟨S1000000, .i32⟩ : BufTy).Contents (Elt F)),
    StableHlo.binary main_arg7 main_v3 main_v4 (subi : (⟨S1000000, .i32⟩ : BufTy).Contents (Elt F) → (⟨S1000000, .i32⟩ : BufTy).Contents (Elt F) → (⟨S1000000, .i32⟩ : BufTy).Contents (Elt F)),
    StableHlo.nullary main_c_0 (constantI S_ 32 0#32),
    StableHlo.unary main_c_0 main_v5 (broadcastInDim S1000000 ![] bcast_S_S1000000 : (⟨S_, .i32⟩ : BufTy).Contents (Elt F) → (⟨S1000000, .i32⟩ : BufTy).Contents (Elt F)),
    StableHlo.binary main_v4 main_v5 main_v6 (cmpi .slt : (⟨S1000000, .i32⟩ : BufTy).Contents (Elt F) → (⟨S1000000, .i32⟩ : BufTy).Contents (Elt F) → (⟨S1000000, .i1⟩ : BufTy).Contents (Elt F)),
    StableHlo.nullary main_c_1 (constantI S_ 32 8#32),
    StableHlo.unary main_c_1 main_v7 (broadcastInDim S1000000 ![] bcast_S_S1000000 : (⟨S_, .i32⟩ : BufTy).Contents (Elt F) → (⟨S1000000, .i32⟩ : BufTy).Contents (Elt F)),
    StableHlo.binary main_v4 main_v7 main_v8 (addi : (⟨S1000000, .i32⟩ : BufTy).Contents (Elt F) → (⟨S1000000, .i32⟩ : BufTy).Contents (Elt F) → (⟨S1000000, .i32⟩ : BufTy).Contents (Elt F)),
    StableHlo.ternary main_v6 main_v8 main_v4 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v9 main_v10 (broadcastInDim S1000000x1 ![0] bcast_S1000000_S1000000x1_0 : (⟨S1000000, .i32⟩ : BufTy).Contents (Elt F) → (⟨S1000000x1, .i32⟩ : BufTy).Contents (Elt F)),
    StableHlo.binary main_v2 main_v10 main_v11 ((fun x i => Host.gather gather_S8x1_S1000000x1_S1000000x1_1_0_n_n_0_1_11 x i) : (⟨S8x1, .f32⟩ : BufTy).Contents (Elt F) → (⟨S1000000x1, .i32⟩ : BufTy).Contents (Elt F) → (⟨S1000000x1, .f32⟩ : BufTy).Contents (Elt F)),
    StableHlo.reshape main_v11 main_v12 rfl shapeCasts_S1000000x1_S1000000,
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.unary main_arg6 main_v14 (broadcastInDim S1000000x1 ![0] bcast_S1000000_S1000000x1_0 : (⟨S1000000, .i32⟩ : BufTy).Contents (Elt F) → (⟨S1000000x1, .i32⟩ : BufTy).Contents (Elt F)),
    StableHlo.ternary main_v13 main_v14 main_v12 main_v15 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S100000 ![] bcast_S_S100000),
    StableHlo.TRef.binary main_call1.v1 (.of main_v15) main_call1.v2 maximumf,
    StableHlo.nullary main_cst_4 (constant S_ .f32 0xBF000000#32),
    StableHlo.unary main_cst_4 main_v17 (broadcastInDim S100000 ![] bcast_S_S100000 : (⟨S_, .f32⟩ : BufTy).Contents (Elt F) → (⟨S100000, .f32⟩ : BufTy).Contents (Elt F)),
    StableHlo.binary main_v16 main_v17 main_v18 (Host.powf : (⟨S100000, .f32⟩ : BufTy).Contents (Elt F) → (⟨S100000, .f32⟩ : BufTy).Contents (Elt F) → (⟨S100000, .f32⟩ : BufTy).Contents (Elt F)),
    StableHlo.unary main_v18 main_v19 (broadcastInDim S100000x1 ![0] bcast_S100000_S100000x1_0 : (⟨S100000, .f32⟩ : BufTy).Contents (Elt F) → (⟨S100000x1, .f32⟩ : BufTy).Contents (Elt F)),
    StableHlo.binary main_arg0 main_arg2 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v19 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v21 main_v22 (mulf : (⟨S100000x64, .f32⟩ : BufTy).Contents (Elt F) → (⟨S100000x64, .f32⟩ : BufTy).Contents (Elt F) → (⟨S100000x64, .f32⟩ : BufTy).Contents (Elt F)),
    StableHlo.nullary main_c_5 (constantI S_ 32 0#32),
    StableHlo.unary main_c_5 main_v23 (broadcastInDim S1000000 ![] bcast_S_S1000000 : (⟨S_, .i32⟩ : BufTy).Contents (Elt F) → (⟨S1000000, .i32⟩ : BufTy).Contents (Elt F)),
    StableHlo.binary main_arg5 main_v23 main_v24 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v25 (broadcastInDim S1000000 ![] bcast_S_S1000000 : (⟨S_, .i32⟩ : BufTy).Contents (Elt F) → (⟨S1000000, .i32⟩ : BufTy).Contents (Elt F)),
    StableHlo.binary main_arg5 main_v25 main_v26 (addi : (⟨S1000000, .i32⟩ : BufTy).Contents (Elt F) → (⟨S1000000, .i32⟩ : BufTy).Contents (Elt F) → (⟨S1000000, .i32⟩ : BufTy).Contents (Elt F)),
    StableHlo.ternary main_v24 main_v26 main_arg5 main_v27 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v27 main_v28 (broadcastInDim S1000000x1 ![0] bcast_S1000000_S1000000x1_0 : (⟨S1000000, .i32⟩ : BufTy).Contents (Elt F) → (⟨S1000000x1, .i32⟩ : BufTy).Contents (Elt F)),
    StableHlo.binary main_v22 main_v28 main_v29 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_7 (constant S_ .f32 0x00000000#32),
    StableHlo.unary main_cst_7 main_v30 (broadcastInDim S100000x64 ![] bcast_S_S100000x64 : (⟨S_, .f32⟩ : BufTy).Contents (Elt F) → (⟨S100000x64, .f32⟩ : BufTy).Contents (Elt F)),
    StableHlo.unary main_arg6 main_v31 (broadcastInDim S1000000x1 ![0] bcast_S1000000_S1000000x1_0 : (⟨S1000000, .i32⟩ : BufTy).Contents (Elt F) → (⟨S1000000x1, .i32⟩ : BufTy).Contents (Elt F)),
    StableHlo.ternary main_v30 main_v31 main_v29 main_v32 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v19 main_v33 (broadcastInDim S100000x64 ![0, 1] bcast_S100000x1_S100000x64_0_1 : (⟨S100000x1, .f32⟩ : BufTy).Contents (Elt F) → (⟨S100000x64, .f32⟩ : BufTy).Contents (Elt F)),
    StableHlo.binary main_v32 main_v33 main_v34 (mulf : (⟨S100000x64, .f32⟩ : BufTy).Contents (Elt F) → (⟨S100000x64, .f32⟩ : BufTy).Contents (Elt F) → (⟨S100000x64, .f32⟩ : BufTy).Contents (Elt F)),
    StableHlo.binary main_v34 main_arg3 main_v35 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v19 main_v36 (broadcastInDim S100000x64 ![0, 1] bcast_S100000x1_S100000x64_0_1 : (⟨S100000x1, .f32⟩ : BufTy).Contents (Elt F) → (⟨S100000x64, .f32⟩ : BufTy).Contents (Elt F)),
    StableHlo.binary main_v34 main_v36 main_v37 (mulf : (⟨S100000x64, .f32⟩ : BufTy).Contents (Elt F) → (⟨S100000x64, .f32⟩ : BufTy).Contents (Elt F) → (⟨S100000x64, .f32⟩ : BufTy).Contents (Elt F)),
    StableHlo.nullary main_c_8 (constantI S_ 32 0#32),
    StableHlo.unary main_c_8 main_v38 (broadcastInDim S1000000 ![] bcast_S_S1000000 : (⟨S_, .i32⟩ : BufTy).Contents (Elt F) → (⟨S1000000, .i32⟩ : BufTy).Contents (Elt F)),
    StableHlo.binary main_arg5 main_v38 main_v39 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 100000#32),
    StableHlo.unary main_c_9 main_v40 (broadcastInDim S1000000 ![] bcast_S_S1000000 : (⟨S_, .i32⟩ : BufTy).Contents (Elt F) → (⟨S1000000, .i32⟩ : BufTy).Contents (Elt F)),
    StableHlo.binary main_arg5 main_v40 main_v41 (addi : (⟨S1000000, .i32⟩ : BufTy).Contents (Elt F) → (⟨S1000000, .i32⟩ : BufTy).Contents (Elt F) → (⟨S1000000, .i32⟩ : BufTy).Contents (Elt F)),
    StableHlo.ternary main_v39 main_v41 main_arg5 main_v42 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v42 main_v43 (broadcastInDim S1000000x1 ![0] bcast_S1000000_S1000000x1_0 : (⟨S1000000, .i32⟩ : BufTy).Contents (Elt F) → (⟨S1000000x1, .i32⟩ : BufTy).Contents (Elt F)),
    StableHlo.binary main_v37 main_v43 main_v44 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_10 (constant S_ .f32 0x00000000#32),
    StableHlo.unary main_cst_10 main_v45 (broadcastInDim S100000x64 ![] bcast_S_S100000x64 : (⟨S_, .f32⟩ : BufTy).Contents (Elt F) → (⟨S100000x64, .f32⟩ : BufTy).Contents (Elt F)),
    StableHlo.unary main_arg6 main_v46 (broadcastInDim S1000000x1 ![0] bcast_S1000000_S1000000x1_0 : (⟨S1000000, .i32⟩ : BufTy).Contents (Elt F) → (⟨S1000000x1, .i32⟩ : BufTy).Contents (Elt F)),
    StableHlo.ternary main_v45 main_v46 main_v44 main_v47 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v19 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v48 main_v49 (mulf : (⟨S100000x64, .f32⟩ : BufTy).Contents (Elt F) → (⟨S100000x64, .f32⟩ : BufTy).Contents (Elt F) → (⟨S100000x64, .f32⟩ : BufTy).Contents (Elt F)),
    StableHlo.binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nary ![main_v20, main_v35, main_v50] main_v51 (fun u => concatenate S100000x192 1 [⟨S100000x64, u 0⟩, ⟨S100000x64, u 1⟩, ⟨S100000x64, u 2⟩] concatenates_S100000x64_S100000x64_S100000x64_S100000x192_d1) ]

set_option maxRecDepth 8192 in
set_option maxHeartbeats 4000000 in
/-- The host function is that line: the two windows and the callees unfolded, sequencing reassociated. -/
theorem main_eq (c : Dev nD) : main (F := F) c = seq ops := by
  simp only [main, main_part0, main_part1, fn_leaky_relu.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., nary_bufs_sub ..⟩

set_option maxRecDepth 8192 in
/-- From any memory with zero counters every weakly fair execution of the host function terminates, and every
    final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  The reference program's result as the stated function of its arguments. The host function's line of operations is
  cut where the mathematics is: the norm column, a product, a hop, a product, a hop, and the last product with the
  three laid side by side. Each stretch is read over an arbitrary valuation, so none carries the one before it.
-/
import proofs.«150190_j41601053229994_1_alg».proof.Proof.RefRun
import proofs.«150190_j41601053229994_1_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The shape relations the stated functions ask for, from the program's proved facts. -/
theorem side : Cert.Spec.Side :=
  ⟨bcast_S_S8x1, bcast_S_S1000000, bcast_S1000000_S1000000x1_0, shapeCasts_S1000000x1_S1000000, bcast_S_S100000,
    bcast_S100000_S100000x1_0, bcast_S100000x1_S100000x64_0_1, bcast_S_S100000x64,
    concatenates_S100000x64_S100000x64_S100000x64_S100000x192_d1, gather_S8x1_S1000000x1_S1000000x1_1_0_n_n_0_1_11_wf,
    scatter_S100000_S1000000x1_S1000000_n_0_0_1_wf, dot_S100000x64_S64x64_S100000x64_1_0_0_1_n_n_wf,
    gather_S100000x64_S1000000x1_S1000000x64_1_0_n_n_0_1_164_wf, scatter_S100000x64_S1000000x1_S1000000x64_1_0_0_1_wf⟩

/-- Two lines run one after the other fold as the second over the first's fold. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A reference in a list is, as a one-buffer set, inside the list's buffers. -/
theorem writes_in {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-! ## The stretches -/

def opsA : List (HloOp τ sig (Elt F)) :=
  [ StableHlo.nullary main_cst (constant S_ .f32 0x41200000#32),
    StableHlo.unary main_cst main_v0 (broadcastInDim S8x1 ![] bcast_S_S8x1 : (⟨S_, .f32⟩ : BufTy).Contents (Elt F) → (⟨S8x1, .f32⟩ : BufTy).Contents (Elt F)),
    StableHlo.binary main_arg1 main_v0 main_v1 (mulf : (⟨S8x1, .f32⟩ : BufTy).Contents (Elt F) → (⟨S8x1, .f32⟩ : BufTy).Contents (Elt F) → (⟨S8x1, .f32⟩ : BufTy).Contents (Elt F)),
    StableHlo.TRef.nullary main_call0.cst (constant S_ .f32 0x00000000#32),
    StableHlo.TRef.unary main_call0.cst main_call0.v0 (broadcastInDim S8x1 ![] bcast_S_S8x1),
    StableHlo.TRef.binary (.of main_v1) main_call0.v0 main_call0.v1 (cmpf .oge),
    StableHlo.TRef.nullary main_call0.cst_0 (constant S_ .f32 0x3C23D70A#32),
    StableHlo.TRef.unary main_call0.cst_0 main_call0.v2 (broadcastInDim S8x1 ![] bcast_S_S8x1),
    StableHlo.TRef.binary main_call0.v2 (.of main_v1) main_call0.v3 mulf,
    StableHlo.TRef.ternary main_call0.v1 (.of main_v1) main_call0.v3 main_call0.call0.v0 select,
    StableHlo.nullary main_c (constantI S_ 32 1#32),
    StableHlo.unary main_c main_v3 (broadcastInDim S1000000 ![] bcast_S_S1000000 : (⟨S_, .i32⟩ : BufTy).Contents (Elt F) → (⟨S1000000, .i32⟩ : BufTy).Contents (Elt F)),
    StableHlo.binary main_arg7 main_v3 main_v4 (subi : (⟨S1000000, .i32⟩ : BufTy).Contents (Elt F) → (⟨S1000000, .i32⟩ : BufTy).Contents (Elt F) → (⟨S1000000, .i32⟩ : BufTy).Contents (Elt F)),
    StableHlo.nullary main_c_0 (constantI S_ 32 0#32),
    StableHlo.unary main_c_0 main_v5 (broadcastInDim S1000000 ![] bcast_S_S1000000 : (⟨S_, .i32⟩ : BufTy).Contents (Elt F) → (⟨S1000000, .i32⟩ : BufTy).Contents (Elt F)),
    StableHlo.binary main_v4 main_v5 main_v6 (cmpi .slt : (⟨S1000000, .i32⟩ : BufTy).Contents (Elt F) → (⟨S1000000, .i32⟩ : BufTy).Contents (Elt F) → (⟨S1000000, .i1⟩ : BufTy).Contents (Elt F)),
    StableHlo.nullary main_c_1 (constantI S_ 32 8#32),
    StableHlo.unary main_c_1 main_v7 (broadcastInDim S1000000 ![] bcast_S_S1000000 : (⟨S_, .i32⟩ : BufTy).Contents (Elt F) → (⟨S1000000, .i32⟩ : BufTy).Contents (Elt F)),
    StableHlo.binary main_v4 main_v7 main_v8 (addi : (⟨S1000000, .i32⟩ : BufTy).Contents (Elt F) → (⟨S1000000, .i32⟩ : BufTy).Contents (Elt F) → (⟨S1000000, .i32⟩ : BufTy).Contents (Elt F)),
    StableHlo.ternary main_v6 main_v8 main_v4 main_v9 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v9 main_v10 (broadcastInDim S1000000x1 ![0] bcast_S1000000_S1000000x1_0 : (⟨S1000000, .i32⟩ : BufTy).Contents (Elt F) → (⟨S1000000x1, .i32⟩ : BufTy).Contents (Elt F)),
    StableHlo.binary main_v2 main_v10 main_v11 ((fun x i => Host.gather gather_S8x1_S1000000x1_S1000000x1_1_0_n_n_0_1_11 x i) : (⟨S8x1, .f32⟩ : BufTy).Contents (Elt F) → (⟨S1000000x1, .i32⟩ : BufTy).Contents (Elt F) → (⟨S1000000x1, .f32⟩ : BufTy).Contents (Elt F)),
    StableHlo.reshape main_v11 main_v12 rfl shapeCasts_S1000000x1_S1000000,
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.unary main_arg6 main_v14 (broadcastInDim S1000000x1 ![0] bcast_S1000000_S1000000x1_0 : (⟨S1000000, .i32⟩ : BufTy).Contents (Elt F) → (⟨S1000000x1, .i32⟩ : BufTy).Contents (Elt F)),
    StableHlo.ternary main_v13 main_v14 main_v12 main_v15 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S100000 ![] bcast_S_S100000),
    StableHlo.TRef.binary main_call1.v1 (.of main_v15) main_call1.v2 maximumf,
    StableHlo.nullary main_cst_4 (constant S_ .f32 0xBF000000#32),
    StableHlo.unary main_cst_4 main_v17 (broadcastInDim S100000 ![] bcast_S_S100000 : (⟨S_, .f32⟩ : BufTy).Contents (Elt F) → (⟨S100000, .f32⟩ : BufTy).Contents (Elt F)),
    StableHlo.binary main_v16 main_v17 main_v18 (Host.powf : (⟨S100000, .f32⟩ : BufTy).Contents (Elt F) → (⟨S100000, .f32⟩ : BufTy).Contents (Elt F) → (⟨S100000, .f32⟩ : BufTy).Contents (Elt F)),
    StableHlo.unary main_v18 main_v19 (broadcastInDim S100000x1 ![0] bcast_S100000_S100000x1_0 : (⟨S100000, .f32⟩ : BufTy).Contents (Elt F) → (⟨S100000x1, .f32⟩ : BufTy).Contents (Elt F)) ]

/-- The references `opsA` writes. -/
abbrev wA : List (Ref sig .tc) := [main_cst, main_v0, main_v1, main_call0_cst, main_call0_v0, main_call0_v1, main_call0_cst_0, main_call0_v2, main_call0_v3, main_v2, main_c, main_v3, main_v4, main_c_0, main_v5, main_v6, main_c_1, main_v7, main_v8, main_v9, main_v10, main_v11, main_v12, main_cst_2, main_v13, main_v14, main_v15, main_cst_3, main_call1_v0, main_call1_v1, main_v16, main_cst_4, main_v17, main_v18, main_v19]

theorem writesA : (opsA (F := F)).Forall fun op => op.writes ⊆ (wA.map (Proc.devRef (τ := τ) .tc)).toFinset := by
  unfold opsA
  exact ⟨writes_in (y := main_cst) (by decide), writes_in (y := main_v0) (by decide), writes_in (y := main_v1) (by decide), writes_in (y := main_call0_cst) (by decide), writes_in (y := main_call0_v0) (by decide), writes_in (y := main_call0_v1) (by decide), writes_in (y := main_call0_cst_0) (by decide), writes_in (y := main_call0_v2) (by decide), writes_in (y := main_call0_v3) (by decide), writes_in (y := main_v2) (by decide), writes_in (y := main_c) (by decide), writes_in (y := main_v3) (by decide), writes_in (y := main_v4) (by decide), writes_in (y := main_c_0) (by decide), writes_in (y := main_v5) (by decide), writes_in (y := main_v6) (by decide), writes_in (y := main_c_1) (by decide), writes_in (y := main_v7) (by decide), writes_in (y := main_v8) (by decide), writes_in (y := main_v9) (by decide), writes_in (y := main_v10) (by decide), writes_in (y := main_v11) (by decide), writes_in (y := main_v12) (by decide), writes_in (y := main_cst_2) (by decide), writes_in (y := main_v13) (by decide), writes_in (y := main_v14) (by decide), writes_in (y := main_v15) (by decide), writes_in (y := main_cst_3) (by decide), writes_in (y := main_call1_v0) (by decide), writes_in (y := main_call1_v1) (by decide), writes_in (y := main_v16) (by decide), writes_in (y := main_cst_4) (by decide), writes_in (y := main_v17) (by decide), writes_in (y := main_v18) (by decide), writes_in (y := main_v19) (by decide)⟩

theorem keepA (V : Valuation τ sig (Elt F)) {r : Ref sig .tc} (h : r ∉ wA) :
    after (opsA (F := F)) V (r : DevRef τ sig) = V (r : DevRef τ sig) :=
  after_of_writes_sub opsA V writesA h

def opsD0 : List (HloOp τ sig (Elt F)) :=
  [ StableHlo.binary main_arg0 main_arg2 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The references `opsD0` writes. -/
abbrev wD0 : List (Ref sig .tc) := [main_v20]

theorem writesD0 : (opsD0 (F := F)).Forall fun op => op.writes ⊆ (wD0.map (Proc.devRef (τ := τ) .tc)).toFinset := by
  unfold opsD0
  exact writes_in (y := main_v20) (by decide)

theorem keepD0 (V : Valuation τ sig (Elt F)) {r : Ref sig .tc} (h : r ∉ wD0) :
    after (opsD0 (F := F)) V (r : DevRef τ sig) = V (r : DevRef τ sig) :=
  after_of_writes_sub opsD0 V writesD0 h

def opsB : List (HloOp τ sig (Elt F)) :=
  [ StableHlo.unary main_v19 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v21 main_v22 (mulf : (⟨S100000x64, .f32⟩ : BufTy).Contents (Elt F) → (⟨S100000x64, .f32⟩ : BufTy).Contents (Elt F) → (⟨S100000x64, .f32⟩ : BufTy).Contents (Elt F)),
    StableHlo.nullary main_c_5 (constantI S_ 32 0#32),
    StableHlo.unary main_c_5 main_v23 (broadcastInDim S1000000 ![] bcast_S_S1000000 : (⟨S_, .i32⟩ : BufTy).Contents (Elt F) → (⟨S1000000, .i32⟩ : BufTy).Contents (Elt F)),
    StableHlo.binary main_arg5 main_v23 main_v24 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v25 (broadcastInDim S1000000 ![] bcast_S_S1000000 : (⟨S_, .i32⟩ : BufTy).Contents (Elt F) → (⟨S1000000, .i32⟩ : BufTy).Contents (Elt F)),
    StableHlo.binary main_arg5 main_v25 main_v26 (addi : (⟨S1000000, .i32⟩ : BufTy).Contents (Elt F) → (⟨S1000000, .i32⟩ : BufTy).Contents (Elt F) → (⟨S1000000, .i32⟩ : BufTy).Contents (Elt F)),
    StableHlo.ternary main_v24 main_v26 main_arg5 main_v27 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v27 main_v28 (broadcastInDim S1000000x1 ![0] bcast_S1000000_S1000000x1_0 : (⟨S1000000, .i32⟩ : BufTy).Contents (Elt F) → (⟨S1000000x1, .i32⟩ : BufTy).Contents (Elt F)),
    StableHlo.binary main_v22 main_v28 main_v29 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_7 (constant S_ .f32 0x00000000#32),
    StableHlo.unary main_cst_7 main_v30 (broadcastInDim S100000x64 ![] bcast_S_S100000x64 : (⟨S_, .f32⟩ : BufTy).Contents (Elt F) → (⟨S100000x64, .f32⟩ : BufTy).Contents (Elt F)),
    StableHlo.unary main_arg6 main_v31 (broadcastInDim S1000000x1 ![0] bcast_S1000000_S1000000x1_0 : (⟨S1000000, .i32⟩ : BufTy).Contents (Elt F) → (⟨S1000000x1, .i32⟩ : BufTy).Contents (Elt F)),
    StableHlo.ternary main_v30 main_v31 main_v29 main_v32 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v19 main_v33 (broadcastInDim S100000x64 ![0, 1] bcast_S100000x1_S100000x64_0_1 : (⟨S100000x1, .f32⟩ : BufTy).Contents (Elt F) → (⟨S100000x64, .f32⟩ : BufTy).Contents (Elt F)),
    StableHlo.binary main_v32 main_v33 main_v34 (mulf : (⟨S100000x64, .f32⟩ : BufTy).Contents (Elt F) → (⟨S100000x64, .f32⟩ : BufTy).Contents (Elt F) → (⟨S100000x64, .f32⟩ : BufTy).Contents (Elt F)) ]

/-- The references `opsB` writes. -/
abbrev wB : List (Ref sig .tc) := [main_v21, main_v22, main_c_5, main_v23, main_v24, main_c_6, main_v25, main_v26, main_v27, main_v28, main_v29, main_cst_7, main_v30, main_v31, main_v32, main_v33, main_v34]

theorem writesB : (opsB (F := F)).Forall fun op => op.writes ⊆ (wB.map (Proc.devRef (τ := τ) .tc)).toFinset := by
  unfold opsB
  exact ⟨writes_in (y := main_v21) (by decide), writes_in (y := main_v22) (by decide), writes_in (y := main_c_5) (by decide), writes_in (y := main_v23) (by decide), writes_in (y := main_v24) (by decide), writes_in (y := main_c_6) (by decide), writes_in (y := main_v25) (by decide), writes_in (y := main_v26) (by decide), writes_in (y := main_v27) (by decide), writes_in (y := main_v28) (by decide), writes_in (y := main_v29) (by decide), writes_in (y := main_cst_7) (by decide), writes_in (y := main_v30) (by decide), writes_in (y := main_v31) (by decide), writes_in (y := main_v32) (by decide), writes_in (y := main_v33) (by decide), writes_in (y := main_v34) (by decide)⟩

theorem keepB (V : Valuation τ sig (Elt F)) {r : Ref sig .tc} (h : r ∉ wB) :
    after (opsB (F := F)) V (r : DevRef τ sig) = V (r : DevRef τ sig) :=
  after_of_writes_sub opsB V writesB h

def opsD1 : List (HloOp τ sig (Elt F)) :=
  [ StableHlo.binary main_v34 main_arg3 main_v35 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The references `opsD1` writes. -/
abbrev wD1 : List (Ref sig .tc) := [main_v35]

theorem writesD1 : (opsD1 (F := F)).Forall fun op => op.writes ⊆ (wD1.map (Proc.devRef (τ := τ) .tc)).toFinset := by
  unfold opsD1
  exact writes_in (y := main_v35) (by decide)

theorem keepD1 (V : Valuation τ sig (Elt F)) {r : Ref sig .tc} (h : r ∉ wD1) :
    after (opsD1 (F := F)) V (r : DevRef τ sig) = V (r : DevRef τ sig) :=
  after_of_writes_sub opsD1 V writesD1 h

def opsC : List (HloOp τ sig (Elt F)) :=
  [ StableHlo.unary main_v19 main_v36 (broadcastInDim S100000x64 ![0, 1] bcast_S100000x1_S100000x64_0_1 : (⟨S100000x1, .f32⟩ : BufTy).Contents (Elt F) → (⟨S100000x64, .f32⟩ : BufTy).Contents (Elt F)),
    StableHlo.binary main_v34 main_v36 main_v37 (mulf : (⟨S100000x64, .f32⟩ : BufTy).Contents (Elt F) → (⟨S100000x64, .f32⟩ : BufTy).Contents (Elt F) → (⟨S100000x64, .f32⟩ : BufTy).Contents (Elt F)),
    StableHlo.nullary main_c_8 (constantI S_ 32 0#32),
    StableHlo.unary main_c_8 main_v38 (broadcastInDim S1000000 ![] bcast_S_S1000000 : (⟨S_, .i32⟩ : BufTy).Contents (Elt F) → (⟨S1000000, .i32⟩ : BufTy).Contents (Elt F)),
    StableHlo.binary main_arg5 main_v38 main_v39 (cmpi .slt : (⟨S1000000, .i32⟩ : BufTy).Contents (Elt F) → (⟨S1000000, .i32⟩ : BufTy).Contents (Elt F) → (⟨S1000000, .i1⟩ : BufTy).Contents (Elt F)),
    StableHlo.nullary main_c_9 (constantI S_ 32 100000#32),
    StableHlo.unary main_c_9 main_v40 (broadcastInDim S1000000 ![] bcast_S_S1000000 : (⟨S_, .i32⟩ : BufTy).Contents (Elt F) → (⟨S1000000, .i32⟩ : BufTy).Contents (Elt F)),
    StableHlo.binary main_arg5 main_v40 main_v41 (addi : (⟨S1000000, .i32⟩ : BufTy).Contents (Elt F) → (⟨S1000000, .i32⟩ : BufTy).Contents (Elt F) → (⟨S1000000, .i32⟩ : BufTy).Contents (Elt F)),
    StableHlo.ternary main_v39 main_v41 main_arg5 main_v42 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v42 main_v43 (broadcastInDim S1000000x1 ![0] bcast_S1000000_S1000000x1_0 : (⟨S1000000, .i32⟩ : BufTy).Contents (Elt F) → (⟨S1000000x1, .i32⟩ : BufTy).Contents (Elt F)),
    StableHlo.binary main_v37 main_v43 main_v44 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_10 (constant S_ .f32 0x00000000#32),
    StableHlo.unary main_cst_10 main_v45 (broadcastInDim S100000x64 ![] bcast_S_S100000x64 : (⟨S_, .f32⟩ : BufTy).Contents (Elt F) → (⟨S100000x64, .f32⟩ : BufTy).Contents (Elt F)),
    StableHlo.unary main_arg6 main_v46 (broadcastInDim S1000000x1 ![0] bcast_S1000000_S1000000x1_0 : (⟨S1000000, .i32⟩ : BufTy).Contents (Elt F) → (⟨S1000000x1, .i32⟩ : BufTy).Contents (Elt F)),
    StableHlo.ternary main_v45 main_v46 main_v44 main_v47 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v19 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v47 main_v48 main_v49 (mulf : (⟨S100000x64, .f32⟩ : BufTy).Contents (Elt F) → (⟨S100000x64, .f32⟩ : BufTy).Contents (Elt F) → (⟨S100000x64, .f32⟩ : BufTy).Contents (Elt F)) ]

/-- The references `opsC` writes. -/
abbrev wC : List (Ref sig .tc) := [main_v36, main_v37, main_c_8, main_v38, main_v39, main_c_9, main_v40, main_v41, main_v42, main_v43, main_v44, main_cst_10, main_v45, main_v46, main_v47, main_v48, main_v49]

theorem writesC : (opsC (F := F)).Forall fun op => op.writes ⊆ (wC.map (Proc.devRef (τ := τ) .tc)).toFinset := by
  unfold opsC
  exact ⟨writes_in (y := main_v36) (by decide), writes_in (y := main_v37) (by decide), writes_in (y := main_c_8) (by decide), writes_in (y := main_v38) (by decide), writes_in (y := main_v39) (by decide), writes_in (y := main_c_9) (by decide), writes_in (y := main_v40) (by decide), writes_in (y := main_v41) (by decide), writes_in (y := main_v42) (by decide), writes_in (y := main_v43) (by decide), writes_in (y := main_v44) (by decide), writes_in (y := main_cst_10) (by decide), writes_in (y := main_v45) (by decide), writes_in (y := main_v46) (by decide), writes_in (y := main_v47) (by decide), writes_in (y := main_v48) (by decide), writes_in (y := main_v49) (by decide)⟩

theorem keepC (V : Valuation τ sig (Elt F)) {r : Ref sig .tc} (h : r ∉ wC) :
    after (opsC (F := F)) V (r : DevRef τ sig) = V (r : DevRef τ sig) :=
  after_of_writes_sub opsC V writesC h

def opsE : List (HloOp τ sig (Elt F)) :=
  [ StableHlo.binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nary ![main_v20, main_v35, main_v50] main_v51 (fun u => concatenate S100000x192 1 [⟨S100000x64, u 0⟩, ⟨S100000x64, u 1⟩, ⟨S100000x64, u 2⟩] concatenates_S100000x64_S100000x64_S100000x64_S100000x192_d1) ]

/-- The references `opsE` writes. -/
abbrev wE : List (Ref sig .tc) := [main_v50, main_v51]

theorem writesE : (opsE (F := F)).Forall fun op => op.writes ⊆ (wE.map (Proc.devRef (τ := τ) .tc)).toFinset := by
  unfold opsE
  exact ⟨writes_in (y := main_v50) (by decide), writes_in (y := main_v51) (by decide)⟩

theorem keepE (V : Valuation τ sig (Elt F)) {r : Ref sig .tc} (h : r ∉ wE) :
    after (opsE (F := F)) V (r : DevRef τ sig) = V (r : DevRef τ sig) :=
  after_of_writes_sub opsE V writesE h

/-! ## What each stretch leaves at its result -/

/-- The first stretch leaves the norm column. -/
theorem valA (V : Valuation τ sig (Elt F)) :
    after (opsA (F := F)) V (main_v19 : DevRef τ sig)
      = Cert.Spec.normCol side (V (main_arg1 : DevRef τ sig)) (V (main_arg6 : DevRef τ sig)) (V (main_arg7 : DevRef τ sig)) := by
  unfold opsA
  after_results_simp
  rfl

/-- The first product. -/
theorem valD0 (V : Valuation τ sig (Elt F)) :
    after (opsD0 (F := F)) V (main_v20 : DevRef τ sig)
      = Cert.Spec.transform side (V (main_arg0 : DevRef τ sig)) (V (main_arg2 : DevRef τ sig)) := by
  unfold opsD0
  after_results
  rfl

/-- The second stretch is one hop of the given features. -/
theorem valB (V : Valuation τ sig (Elt F)) :
    after (opsB (F := F)) V (main_v34 : DevRef τ sig)
      = Cert.Spec.hop side (V (main_v19 : DevRef τ sig)) (V (main_arg5 : DevRef τ sig)) (V (main_arg6 : DevRef τ sig)) (V (main_arg0 : DevRef τ sig)) := by
  unfold opsB
  after_results_simp
  rfl

/-- The second product. -/
theorem valD1 (V : Valuation τ sig (Elt F)) :
    after (opsD1 (F := F)) V (main_v35 : DevRef τ sig)
      = Cert.Spec.transform side (V (main_v34 : DevRef τ sig)) (V (main_arg3 : DevRef τ sig)) := by
  unfold opsD1
  after_results
  rfl

/-- The third stretch is one hop of the first hop's features. -/
theorem valC (V : Valuation τ sig (Elt F)) :
    after (opsC (F := F)) V (main_v49 : DevRef τ sig)
      = Cert.Spec.hop side (V (main_v19 : DevRef τ sig)) (V (main_arg5 : DevRef τ sig)) (V (main_arg6 : DevRef τ sig)) (V (main_v34 : DevRef τ sig)) := by
  unfold opsC
  after_results_simp
  rfl

/-- The third product and the three side by side. -/
theorem valE (V : Valuation τ sig (Elt F)) :
    after (opsE (F := F)) V (main_v51 : DevRef τ sig)
      = Cert.Spec.sideBySide side (V (main_v20 : DevRef τ sig)) (V (main_v35 : DevRef τ sig)) (Cert.Spec.transform side (V (main_v49 : DevRef τ sig)) (V (main_arg4 : DevRef τ sig))) := by
  unfold opsE
  after_results
  rfl

/-! ## The whole line -/

/-- The line is the six stretches in order. -/
theorem ops_split : (ops : List (HloOp τ sig (Elt F))) = opsA ++ (opsD0 ++ (opsB ++ (opsD1 ++ (opsC ++ opsE)))) := rfl

/-- A reference no stretch writes keeps its contents through the whole line. -/
theorem keep_ops (V : Valuation τ sig (Elt F)) {r : Ref sig .tc} (hA : r ∉ wA) (h0 : r ∉ wD0) (hB : r ∉ wB) (h1 : r ∉ wD1)
    (hC : r ∉ wC) (hE : r ∉ wE) : after (ops (F := F)) V (r : DevRef τ sig) = V (r : DevRef τ sig) := by
  rw [ops_split]
  simp only [after_append]
  rw [keepE _ hE, keepC _ hC, keepD1 _ h1, keepB _ hB, keepD0 _ h0, keepA _ hA]

/-- The result buffer after the whole line is the stated function of the arguments' contents: each stretch's value,
    read at what the stretches before it left. -/
theorem value (V : Valuation τ sig (Elt F)) :
    after (ops (F := F)) V (main_v51 : DevRef τ sig) = Cert.Spec.result side (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split]
  simp only [after_append]
  rw [valE, valC, keepC _ (r := main_v20) (by decide), keepC _ (r := main_v35) (by decide), keepC _ (r := main_arg4) (by decide),
    valD1, keepD1 _ (r := main_v20) (by decide), keepD1 _ (r := main_v19) (by decide), keepD1 _ (r := main_arg5) (by decide), keepD1 _ (r := main_arg6) (by decide), keepD1 _ (r := main_v34) (by decide), keepD1 _ (r := main_arg4) (by decide),
    valB, keepB _ (r := main_v20) (by decide), keepB _ (r := main_arg3) (by decide), keepB _ (r := main_v19) (by decide), keepB _ (r := main_arg5) (by decide), keepB _ (r := main_arg6) (by decide), keepB _ (r := main_arg4) (by decide),
    valD0, keepD0 _ (r := main_arg3) (by decide), keepD0 _ (r := main_v19) (by decide), keepD0 _ (r := main_arg5) (by decide), keepD0 _ (r := main_arg6) (by decide), keepD0 _ (r := main_arg0) (by decide), keepD0 _ (r := main_arg4) (by decide),
    valA, keepA _ (r := main_arg0) (by decide), keepA _ (r := main_arg2) (by decide), keepA _ (r := main_arg3) (by decide), keepA _ (r := main_arg4) (by decide), keepA _ (r := main_arg5) (by decide), keepA _ (r := main_arg6) (by decide)]
  rfl

/-- From any memory with zero counters every weakly fair execution of the host function terminates with the result
    buffer at the stated function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = Cert.Spec.result (F := F) side (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v51).trans (value _),
      (h c main_arg0).trans (keep_ops _ (by decide) (by decide) (by decide) (by decide) (by decide) (by decide)),
      (h c main_arg1).trans (keep_ops _ (by decide) (by decide) (by decide) (by decide) (by decide) (by decide)),
      (h c main_arg2).trans (keep_ops _ (by decide) (by decide) (by decide) (by decide) (by decide) (by decide)),
      (h c main_arg3).trans (keep_ops _ (by decide) (by decide) (by decide) (by decide) (by decide) (by decide)),
      (h c main_arg4).trans (keep_ops _ (by decide) (by decide) (by decide) (by decide) (by decide) (by decide)),
      (h c main_arg5).trans (keep_ops _ (by decide) (by decide) (by decide) (by decide) (by decide) (by decide)),
      (h c main_arg6).trans (keep_ops _ (by decide) (by decide) (by decide) (by decide) (by decide) (by decide)),
      (h c main_arg7).trans (keep_ops _ (by decide) (by decide) (by decide) (by decide) (by decide) (by decide))⟩)
    (run_main m ρ)

end Cert.ReferenceIdeal.Hand

end
-- ==== Proof.lean ====
/-
  The certificate's five claims for a graph convolution with three hops: per hop a linear transform of the node
  features, between hops an edge-weighted propagation over a list of a million edges.

  The two programs share every host operation: the leaky-rectified table of edge-type weights, the weighted in-degree
  by a scatter-add over the destinations, the norm (the degree raised to at least one, to the power -1/2), and per
  propagation a scaling, a gather by source, a scatter-add by destination and a second scaling; the result lays the
  three transforms side by side. They differ only in how a transform `h W` is computed: the reference as one product
  on the host, the kernel program as a pipelined region that multiplies ten blocks of ten thousand rows, rounding its
  operands to a narrower float format first. Over the extended reals that rounding is the identity and both products
  are, entry by entry, the same sum over the inner index; addition there is commutative and associative, so no
  finiteness of the inputs is used. The index arrays are not restricted: a negative index is moved up by the axis'
  extent by the same host operations on both sides, and what the gather and the scatter-add make of an index still
  outside the axis is the same function on both sides.

  Frames: each kernel program's run is three region segments among stretches of host operations; the reference's is
  one straight line of host operations. `preserves` has no entry. `algebraic`: both result arrays are
  `Cert.Spec.result` of the argument arrays.
-/
import proofs.«150190_j41601053229994_1_alg».proof.Defs
import proofs.«150190_j41601053229994_1_alg».proof.Proof.Gen.Kernel
import proofs.«150190_j41601053229994_1_alg».proof.Proof.Gen.KernelIdeal
import proofs.«150190_j41601053229994_1_alg».proof.Proof.Gen.ReferenceIdeal
import proofs.«150190_j41601053229994_1_alg».proof.Proof.Gen.Pre_finite_inputs
import proofs.«150190_j41601053229994_1_alg».proof.Proof.K.Frame
import proofs.«150190_j41601053229994_1_alg».proof.Proof.KI.Frame
import proofs.«150190_j41601053229994_1_alg».proof.Proof.KI.Final
import proofs.«150190_j41601053229994_1_alg».proof.Proof.RefValue

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end with the result array at `Cert.Spec.result` of argument arrays that agree. The two sides hold
    their own evidence for the shape relations; the function does not depend on which. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
